-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x32000 : Shape := ⟨3, ![4, 1024, 32000]⟩
abbrev S4x1024 : Shape := ⟨2, ![4, 1024]⟩
abbrev S64 : Shape := ⟨1, ![64]⟩
abbrev S_ : Shape := ⟨0, ![]⟩

class Facts : Prop where
  bcast_S_S4x1024x32000 : S_.BroadcastsInDim S4x1024x32000 (![] : Fin 0 → Fin S4x1024x32000.rank)
  reducesTo_S4x1024x32000_S_d0_1_2 : S4x1024x32000.ReducesTo [0, 1, 2] S_
  h_S_ : 0 < S_.numel
  bcast_S_S64 : S_.BroadcastsInDim S64 (![] : Fin 0 → Fin S64.rank)
  reducesTo_S64_S_d0 : S64.ReducesTo [0] S_
  bcast_S_S4x1024 : S_.BroadcastsInDim S4x1024 (![] : Fin 0 → Fin S4x1024.rank)
  reducesTo_S4x1024_S_d0_1 : S4x1024.ReducesTo [0, 1] S_

variable [Facts]

def fn_part1 {F : FTy → Type} [FloatOps F] (main_v8 : IVec S_ 1) (main_v16 : IVec S4x1024 1) : IVec S_ 1 :=
  let main_c_5 : IVec S_ 1 := constantI S_ 1 1#1
  let main_v17 : IVec S_ 1 := (fun x v => Host.reduce IntOp.andi x v reducesTo_S4x1024_S_d0_1 h_S_) main_v16 main_c_5
  let main_v18 : IVec S_ 1 := andi main_v8 main_v17
  main_v18

def fn {F : FTy → Type} [FloatOps F] (main_arg0 : FVec F S4x1024x32000 .f32) (main_arg1 : IVec S4x1024 32) (main_arg2 : FVec F S64 .f32) (main_arg3 : IVec S64 32) : IVec S_ 1 :=
  let main_v0 : FVec F S4x1024x32000 .f32 := Host.absf main_arg0
  let main_cst : FVec F S_ .f32 := constant S_ .f32 0x7F800000#32
  let main_v1 : FVec F S4x1024x32000 .f32 := broadcastInDim S4x1024x32000 ![] bcast_S_S4x1024x32000 main_cst
  let main_v2 : IVec S4x1024x32000 1 := cmpf .olt main_v0 main_v1
  let main_c : IVec S_ 1 := constantI S_ 1 1#1
  let main_v3 : IVec S_ 1 := (fun x v => Host.reduce IntOp.andi x v reducesTo_S4x1024x32000_S_d0_1_2 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_c_2 : IVec S_ 32 := constantI S_ 32 4294967196#32
  let main_v9 : IVec S4x1024 32 := broadcastInDim S4x1024 ![] bcast_S_S4x1024 main_c_2
  let main_v10 : IVec S4x1024 1 := cmpi .eq main_arg1 main_v9
  let main_c_3 : IVec S_ 32 := constantI S_ 32 0#32
  let main_v11 : IVec S4x1024 32 := broadcastInDim S4x1024 ![] bcast_S_S4x1024 main_c_3
  let main_v12 : IVec S4x1024 1 := cmpi .sge main_arg1 main_v11
  let main_c_4 : IVec S_ 32 := constantI S_ 32 32000#32
  let main_v13 : IVec S4x1024 32 := broadcastInDim S4x1024 ![] bcast_S_S4x1024 main_c_4
  let main_v14 : IVec S4x1024 1 := cmpi .slt main_arg1 main_v13
  let main_v15 : IVec S4x1024 1 := andi main_v12 main_v14
  let main_v16 : IVec S4x1024 1 := ori main_v10 main_v15
  fn_part1 (F := F) main_v8 main_v16
-- ==== Kernel.lean ====
abbrev S4x1024x32000 : Shape := ⟨3, ![4, 1024, 32000]⟩
abbrev S4x1024 : Shape := ⟨2, ![4, 1024]⟩
abbrev S64 : Shape := ⟨1, ![64]⟩
abbrev S4096x32000 : Shape := ⟨2, ![4096, 32000]⟩
abbrev S4096x1 : Shape := ⟨2, ![4096, 1]⟩
abbrev S2x1x1 : Shape := ⟨3, ![2, 1, 1]⟩
abbrev S32x32000 : Shape := ⟨2, ![32, 32000]⟩
abbrev S32x1 : Shape := ⟨2, ![32, 1]⟩
abbrev S1x1x1 : Shape := ⟨3, ![1, 1, 1]⟩
abbrev S1x1 : Shape := ⟨2, ![1, 1]⟩
abbrev S32 : Shape := ⟨1, ![32]⟩
abbrev S1 : Shape := ⟨1, ![1]⟩
abbrev S_ : Shape := ⟨0, ![]⟩
abbrev S64x64 : Shape := ⟨2, ![64, 64]⟩
abbrev S64x1 : Shape := ⟨2, ![64, 1]⟩
abbrev S1x64 : Shape := ⟨2, ![1, 64]⟩

abbrev nBuf : Space → Nat
  | .hbm => 80
  | .vmem => 8
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S64, .f32⟩
  | .hbm, ⟨3, _⟩ => ⟨S64, .i32⟩
  | .hbm, ⟨4, _⟩ => ⟨S4096x32000, .f32⟩
  | .hbm, ⟨5, _⟩ => ⟨S4096x1, .i32⟩
  | .hbm, ⟨6, _⟩ => ⟨S2x1x1, .f32⟩
  | .hbm, ⟨7, _⟩ => ⟨S2x1x1, .f32⟩
  | .hbm, ⟨8, _⟩ => ⟨S1x1x1, .f32⟩
  | .hbm, ⟨9, _⟩ => ⟨S_, .f32⟩
  | .hbm, ⟨10, _⟩ => ⟨S1x1x1, .f32⟩
  | .hbm, ⟨11, _⟩ => ⟨S_, .f32⟩
  | .hbm, ⟨12, _⟩ => ⟨S_, .f32⟩
  | .hbm, ⟨13, _⟩ => ⟨S1x1x1, .f32⟩
  | .hbm, ⟨14, _⟩ => ⟨S_, .f32⟩
  | .hbm, ⟨15, _⟩ => ⟨S1x1x1, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S64, .f32⟩
  | .hbm, ⟨22, _⟩ => ⟨S_, .i1⟩
  | .hbm, ⟨23, _⟩ => ⟨S64x64, .i1⟩
  | .hbm, ⟨24, _⟩ => ⟨S64x64, .i32⟩
  | .hbm, ⟨25, _⟩ => ⟨S_, .i32⟩
  | .hbm, ⟨26, _⟩ => ⟨S64x64, .i32⟩
  | .hbm, ⟨27, _⟩ => ⟨S64x64, .i32⟩
  | .hbm, ⟨28, _⟩ => ⟨S64x64, .i32⟩
  | .hbm, ⟨29, _⟩ => ⟨S64x64, .i1⟩
  | .hbm, ⟨30, _⟩ => ⟨S_, .i1⟩
  | .hbm, ⟨31, _⟩ => ⟨S64x64, .i1⟩
  | .hbm, ⟨32, _⟩ => ⟨S64x64, .i1⟩
  | .hbm, ⟨33, _⟩ => ⟨S64x1, .f32⟩
  | .hbm, ⟨34, _⟩ => ⟨S1x64, .f32⟩
  | .hbm, ⟨35, _⟩ => ⟨S64x64, .f32⟩
  | .hbm, ⟨36, _⟩ => ⟨S64x64, .f32⟩
  | .hbm, ⟨37, _⟩ => ⟨S64x64, .i1⟩
  | .hbm, ⟨38, _⟩ => ⟨S64x64, .i1⟩
  | .hbm, ⟨39, _⟩ => ⟨S64x1, .f32⟩
  | .hbm, ⟨40, _⟩ => ⟨S1x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S_, .f32⟩
  | .hbm, ⟨45, _⟩ => ⟨S64x64, .f32⟩
  | .hbm, ⟨46, _⟩ => ⟨S64x64, .f32⟩
  | .hbm, ⟨47, _⟩ => ⟨S1x64, .f32⟩
  | .hbm, ⟨48, _⟩ => ⟨S64x1, .f32⟩
  | .hbm, ⟨49, _⟩ => ⟨S64x64, .f32⟩
  | .hbm, ⟨50, _⟩ => ⟨S64x64, .f32⟩
  | .hbm, ⟨51, _⟩ => ⟨S64x64, .f32⟩
  | .hbm, ⟨52, _⟩ => ⟨S_, .f32⟩
  | .hbm, ⟨53, _⟩ => ⟨S64x64, .f32⟩
  | .hbm, ⟨54, _⟩ => ⟨S64x64, .f32⟩
  | .hbm, ⟨55, _⟩ => ⟨S64x64, .f32⟩
  | .hbm, ⟨56, _⟩ => ⟨S64x64, .f32⟩
  | .hbm, ⟨57, _⟩ => ⟨S64x64, .i1⟩
  | .hbm, ⟨58, _⟩ => ⟨S64x64, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S64x64, .f32⟩
  | .hbm, ⟨67, _⟩ => ⟨S_, .f32⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .local _ .vmem, ⟨0, _⟩ => ⟨S32x32000, .f32⟩
  | .local _ .vmem, ⟨1, _⟩ => ⟨S32x32000, .f32⟩
  | .local _ .vmem, ⟨2, _⟩ => ⟨S32x1, .i32⟩
  | .local _ .vmem, ⟨3, _⟩ => ⟨S32x1, .i32⟩
  | .local _ .vmem, ⟨4, _⟩ => ⟨S1x1x1, .f32⟩
  | .local _ .vmem, ⟨5, _⟩ => ⟨S1x1x1, .f32⟩
  | .local _ .vmem, ⟨6, _⟩ => ⟨S1x1x1, .f32⟩
  | .local _ .vmem, ⟨7, _⟩ => ⟨S1x1x1, .f32⟩
  | _, _ => ⟨S4x1024x32000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_call0_v0 : Ref sig .tc := ⟨.hbm, 24, rfl⟩
abbrev main_call0_c : Ref sig .tc := ⟨.hbm, 25, rfl⟩
abbrev main_call0_v1 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_c_0 : Ref sig .tc := ⟨.hbm, 30, rfl⟩
abbrev main_call0_v5 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_call1_cst : Ref sig .tc := ⟨.hbm, 52, rfl⟩
abbrev main_call1_v0 : Ref sig .tc := ⟨.hbm, 53, rfl⟩
abbrev main_call1_v1 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_v6 : Ref sig .tc := ⟨.hbm, 59, rfl⟩
abbrev main_call1_v7 : Ref sig .tc := ⟨.hbm, 60, rfl⟩
abbrev main_call1_v8 : Ref sig .tc := ⟨.hbm, 61, rfl⟩
abbrev main_call1_v9 : Ref sig .tc := ⟨.hbm, 62, rfl⟩
abbrev main_call1_v10 : Ref sig .tc := ⟨.hbm, 63, rfl⟩
abbrev main_call1_v11 : Ref sig .tc := ⟨.hbm, 64, rfl⟩
abbrev main_v36 : Ref sig .tc := ⟨.hbm, 65, rfl⟩
abbrev main_v37 : Ref sig .tc := ⟨.hbm, 66, rfl⟩
abbrev main_cst_1 : Ref sig .tc := ⟨.hbm, 67, rfl⟩
abbrev main_call2_v0 : Ref sig .tc := ⟨.hbm, 68, rfl⟩
abbrev main_call2_v1 : Ref sig .tc := ⟨.hbm, 69, rfl⟩
abbrev main_v38 : Ref sig .tc := ⟨.hbm, 70, rfl⟩
abbrev main_cst_2 : Ref sig .tc := ⟨.hbm, 71, rfl⟩
abbrev main_v39 : Ref sig .tc := ⟨.hbm, 72, rfl⟩
abbrev main_cst_3 : Ref sig .tc := ⟨.hbm, 73, rfl⟩
abbrev main_v40 : Ref sig .tc := ⟨.hbm, 74, rfl⟩
abbrev main_cst_4 : Ref sig .tc := ⟨.hbm, 75, rfl⟩
abbrev main_v41 : Ref sig .tc := ⟨.hbm, 76, rfl⟩
abbrev main_cst_5 : Ref sig .tc := ⟨.hbm, 77, rfl⟩
abbrev main_v42 : Ref sig .tc := ⟨.hbm, 78, rfl⟩
abbrev main_v43 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 64], ![false, false]⟩

def cc0_transform_0 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c64_i32 : BitVec 32 := 64#32
  let v0 : BitVec 32 := Scalar.muli arg0 c64_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S32x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S32x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S4x1024x32000_S4096x32000 : S4x1024x32000.ShapeCasts S4096x32000
  shapeCasts_S4x1024_S4096x1 : S4x1024.ShapeCasts S4096x1
  inb_S1x1x1_S1x1x1_0_0_0 : ∀ a, (![0, 0, 0] : Fin 3 → Nat) a + S1x1x1.size a ≤ S1x1x1.size a
  h_S1x1x1 : 0 < S1x1x1.numel
  shapeCasts_S1x1x1_S1x1 : S1x1x1.ShapeCasts S1x1
  shapeCasts_S1x1_S1x1x1 : S1x1.ShapeCasts S1x1x1
  inb_S32x32000_S32x32000_0_0 : ∀ a, (![0, 0] : Fin 2 → Nat) a + S32x32000.size a ≤ S32x32000.size a
  h_S32x32000 : 0 < S32x32000.numel
  shapeCasts_S32x32000_S32x32000 : S32x32000.ShapeCasts S32x32000
  inb_S32x1_S32x1_0_0 : ∀ a, (![0, 0] : Fin 2 → Nat) a + S32x1.size a ≤ S32x1.size a
  h_S32x1 : 0 < S32x1.numel
  shapeCasts_S32x1_S32x1 : S32x1.ShapeCasts S32x1
  reduces_S32x32000_S32 : S32x32000.Reduces [1] S32
  shapeCasts_S32_S32x1 : S32.ShapeCasts S32x1
  broadcasts_S32x1_S32x32000 : S32x1.Broadcasts S32x32000
  iota_S32x32000_d1_w32 : S32x32000.Iotas .tc 32 [1]
  natLt_1_32 : 1 < 32
  reduces_S32x1_S1 : S32x1.Reduces [0] S1
  shapeCasts_S1_S1x1 : S1.ShapeCasts S1x1
  slices_S2x1x1_S1x1x1_0_0_0 : S2x1x1.Slices ![0, 0, 0] S1x1x1
  shapeCasts_S1x1x1_S_ : S1x1x1.ShapeCasts S_
  slices_S2x1x1_S1x1x1_1_0_0 : S2x1x1.Slices ![1, 0, 0] S1x1x1
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32000.size a ≤ S4096x32000.size a
  hwx0_0 : ∀ i : grid0.Coords, EltTy.bits .f32 = 32 ∨ (Rect.block (s := S4096x32000) S32x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S32x1.size a ≤ S4096x1.size a
  hwx0_1 : ∀ i : grid0.Coords, EltTy.bits .i32 = 32 ∨ (Rect.block (s := S4096x1) S32x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S2x1x1.size a
  hwx0_2 : ∀ i : grid0.Coords, EltTy.bits .f32 = 32 ∨ (Rect.block (s := S2x1x1) S1x1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)

variable [Facts₀]

abbrev win0_0 : Pipeline.Window sig grid0 :=
  Pipeline.Window.ofSpec (Memref.whole main_v0) S32x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S32x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x32000 : Shape := ⟨3, ![4, 1024, 32000]⟩
abbrev S4x1024 : Shape := ⟨2, ![4, 1024]⟩
abbrev S64 : Shape := ⟨1, ![64]⟩
abbrev S4096x32000 : Shape := ⟨2, ![4096, 32000]⟩
abbrev S4096 : Shape := ⟨1, ![4096]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S64x64 : Shape := ⟨2, ![64, 64]⟩
abbrev S64x1 : Shape := ⟨2, ![64, 1]⟩
abbrev S1x64 : Shape := ⟨2, ![1, 64]⟩

abbrev nBuf : Space → Nat
  | .hbm => 124
  | .vmem => 0
  | .smem => 0
  | _ => 0

abbrev bufTy : (tb : Table) → Fin (tcTables nBuf tb) → BufTy
  | .hbm, ⟨0, _⟩ => ⟨S4x1024x32000, .f32⟩
  | .hbm, ⟨1, _⟩ => ⟨S4x1024, .i32⟩
  | .hbm, ⟨2, _⟩ => ⟨S64, .f32⟩
  | .hbm, ⟨3, _⟩ => ⟨S64, .i32⟩
  | .hbm, ⟨4, _⟩ => ⟨S4096x32000, .f32⟩
  | .hbm, ⟨5, _⟩ => ⟨S4096, .i32⟩
  | .hbm, ⟨6, _⟩ => ⟨S_, .i32⟩
  | .hbm, ⟨7, _⟩ => ⟨S4096, .i32⟩
  | .hbm, ⟨8, _⟩ => ⟨S4096, .i1⟩
  | .hbm, ⟨9, _⟩ => ⟨S_, .i32⟩
  | .hbm, ⟨10, _⟩ => ⟨S_, .i32⟩
  | .hbm, ⟨11, _⟩ => ⟨S4096, .i32⟩
  | .hbm, ⟨12, _⟩ => ⟨S4096, .i32⟩
  | .hbm, ⟨13, _⟩ => ⟨S_, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S4096x32000, .f32⟩
  | .hbm, ⟨20, _⟩ => ⟨S4096x32000, .f32⟩
  | .hbm, ⟨21, _⟩ => ⟨S4096x32000, .f32⟩
  | .hbm, ⟨22, _⟩ => ⟨S_, .f32⟩
  | .hbm, ⟨23, _⟩ => ⟨S4096, .f32⟩
  | .hbm, ⟨24, _⟩ => ⟨S4096x1, .f32⟩
  | .hbm, ⟨25, _⟩ => ⟨S4096x1, .f32⟩
  | .hbm, ⟨26, _⟩ => ⟨S4096x32000, .f32⟩
  | .hbm, ⟨27, _⟩ => ⟨S4096x32000, .f32⟩
  | .hbm, ⟨28, _⟩ => ⟨S4096x1, .i32⟩
  | .hbm, ⟨29, _⟩ => ⟨S_, .i32⟩
  | .hbm, ⟨30, _⟩ => ⟨S4096x1, .i32⟩
  | .hbm, ⟨31, _⟩ => ⟨S4096x1, .i1⟩
  | .hbm, ⟨32, _⟩ => ⟨S_, .i32⟩
  | .hbm, ⟨33, _⟩ => ⟨S4096x1, .i32⟩
  | .hbm, ⟨34, _⟩ => ⟨S4096x1, .i32⟩
  | .hbm, ⟨35, _⟩ => ⟨S4096x1, .i32⟩
  | .hbm, ⟨36, _⟩ => ⟨S4096x1x1, .i32⟩
  | .hbm, ⟨37, _⟩ => ⟨S1, .i32⟩
  | .hbm, ⟨38, _⟩ => ⟨S_, .i32⟩
  | .hbm, ⟨39, _⟩ => ⟨S4096x1x1, .i32⟩
  | .hbm, ⟨40, _⟩ => ⟨S4096x1x1, .i1⟩
  | .hbm, ⟨41, _⟩ => ⟨S1x1x1, .i32⟩
  | .hbm, ⟨42, _⟩ => ⟨S4096x1x1, .i32⟩
  | .hbm, ⟨43, _⟩ => ⟨S4096x1x1, .i1⟩
  | .hbm, ⟨44, _⟩ => ⟨S4096x1x1, .i1⟩
  | .hbm, ⟨45, _⟩ => ⟨S_, .i1⟩
  | .hbm, ⟨46, _⟩ => ⟨S4096x1, .i1⟩
  | .hbm, ⟨47, _⟩ => ⟨S4096x1, .f32⟩
  | .hbm, ⟨48, _⟩ => ⟨S_, .f32⟩
  | .hbm, ⟨49, _⟩ => ⟨S4096x1, .f32⟩
  | .hbm, ⟨50, _⟩ => ⟨S4096x1, .f32⟩
  | .hbm, ⟨51, _⟩ => ⟨S4096, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S64, .f32⟩
  | .hbm, ⟨66, _⟩ => ⟨S_, .i1⟩
  | .hbm, ⟨67, _⟩ => ⟨S64x64, .i1⟩
  | .hbm, ⟨68, _⟩ => ⟨S64x64, .i32⟩
  | .hbm, ⟨69, _⟩ => ⟨S_, .i32⟩
  | .hbm, ⟨70, _⟩ => ⟨S64x64, .i32⟩
  | .hbm, ⟨71, _⟩ => ⟨S64x64, .i32⟩
  | .hbm, ⟨72, _⟩ => ⟨S64x64, .i32⟩
  | .hbm, ⟨73, _⟩ => ⟨S64x64, .i1⟩
  | .hbm, ⟨74, _⟩ => ⟨S_, .i1⟩
  | .hbm, ⟨75, _⟩ => ⟨S64x64, .i1⟩
  | .hbm, ⟨76, _⟩ => ⟨S64x64, .i1⟩
  | .hbm, ⟨77, _⟩ => ⟨S64x1, .f32⟩
  | .hbm, ⟨78, _⟩ => ⟨S1x64, .f32⟩
  | .hbm, ⟨79, _⟩ => ⟨S64x64, .f32⟩
  | .hbm, ⟨80, _⟩ => ⟨S64x64, .f32⟩
  | .hbm, ⟨81, _⟩ => ⟨S64x64, .i1⟩
  | .hbm, ⟨82, _⟩ => ⟨S64x64, .i1⟩
  | .hbm, ⟨83, _⟩ => ⟨S64x1, .f32⟩
  | .hbm, ⟨84, _⟩ => ⟨S1x64, .f32⟩
  | .hbm, ⟨85, _⟩ => ⟨S64x64, .f32⟩
  | .hbm, ⟨86, _⟩ => ⟨S64x64, .f32⟩
  | .hbm, ⟨87, _⟩ => ⟨S64x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S1x64, .f32⟩
  | .hbm, ⟨92, _⟩ => ⟨S64x1, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S_, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S64x64, .f32⟩
  | .hbm, ⟨101, _⟩ => ⟨S64x64, .i1⟩
  | .hbm, ⟨102, _⟩ => ⟨S64x64, .f32⟩
  | .hbm, ⟨103, _⟩ => ⟨S64x64, .f32⟩
  | .hbm, ⟨104, _⟩ => ⟨S64x64, .f32⟩
  | .hbm, ⟨105, _⟩ => ⟨S64x64, .f32⟩
  | .hbm, ⟨106, _⟩ => ⟨S64x64, .f32⟩
  | .hbm, ⟨107, _⟩ => ⟨S64x64, .f32⟩
  | .hbm, ⟨108, _⟩ => ⟨S64x64, .f32⟩
  | .hbm, ⟨109, _⟩ => ⟨S64x64, .f32⟩
  | .hbm, ⟨110, _⟩ => ⟨S64x64, .f32⟩
  | .hbm, ⟨111, _⟩ => ⟨S_, .f32⟩
  | .hbm, ⟨112, _⟩ => ⟨S_, .f32⟩
  | .hbm, ⟨113, _⟩ => ⟨S64x64, .f32⟩
  | .hbm, ⟨114, _⟩ => ⟨S64x64, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | _, _ => ⟨S4x1024x32000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_c_0 : Ref sig .tc := ⟨.hbm, 9, rfl⟩
abbrev main_call0_v0 : Ref sig .tc := ⟨.hbm, 10, rfl⟩
abbrev main_call0_v1 : Ref sig .tc := ⟨.hbm, 11, rfl⟩
abbrev main_v4 : Ref sig .tc := ⟨.hbm, 12, rfl⟩
abbrev main_call1_cst : Ref sig .tc := ⟨.hbm, 13, rfl⟩
abbrev main_call1_v0 : Ref sig .tc := ⟨.hbm, 14, rfl⟩
abbrev main_call1_cst_0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_v6 : Ref sig .tc := ⟨.hbm, 21, rfl⟩
abbrev main_call1_cst_1 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_v5 : Ref sig .tc := ⟨.hbm, 27, rfl⟩
abbrev main_v6 : Ref sig .tc := ⟨.hbm, 28, rfl⟩
abbrev main_call2_c : Ref sig .tc := ⟨.hbm, 29, rfl⟩
abbrev main_call2_v0 : Ref sig .tc := ⟨.hbm, 30, rfl⟩
abbrev main_call2_v1 : Ref sig .tc := ⟨.hbm, 31, rfl⟩
abbrev main_call2_c_0 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_c_1 : Ref sig .tc := ⟨.hbm, 37, rfl⟩
abbrev main_call2_c_2 : Ref sig .tc := ⟨.hbm, 38, rfl⟩
abbrev main_call2_v6 : Ref sig .tc := ⟨.hbm, 39, rfl⟩
abbrev main_call2_v7 : Ref sig .tc := ⟨.hbm, 40, rfl⟩
abbrev main_call2_v8 : Ref sig .tc := ⟨.hbm, 41, rfl⟩
abbrev main_call2_v9 : Ref sig .tc := ⟨.hbm, 42, rfl⟩
abbrev main_call2_v10 : Ref sig .tc := ⟨.hbm, 43, rfl⟩
abbrev main_call2_v11 : Ref sig .tc := ⟨.hbm, 44, rfl⟩
abbrev main_call2_c_3 : Ref sig .tc := ⟨.hbm, 45, rfl⟩
abbrev main_call2_v12 : Ref sig .tc := ⟨.hbm, 46, rfl⟩
abbrev main_call2_v13 : Ref sig .tc := ⟨.hbm, 47, rfl⟩
abbrev main_call2_cst : Ref sig .tc := ⟨.hbm, 48, rfl⟩
abbrev main_call2_v14 : Ref sig .tc := ⟨.hbm, 49, rfl⟩
abbrev main_v7 : Ref sig .tc := ⟨.hbm, 50, rfl⟩
abbrev main_v8 : Ref sig .tc := ⟨.hbm, 51, rfl⟩
abbrev main_v9 : Ref sig .tc := ⟨.hbm, 52, rfl⟩
abbrev main_v10 : Ref sig .tc := ⟨.hbm, 53, rfl⟩
abbrev main_cst : Ref sig .tc := ⟨.hbm, 54, rfl⟩
abbrev main_v11 : Ref sig .tc := ⟨.hbm, 55, rfl⟩
abbrev main_cst_1 : Ref sig .tc := ⟨.hbm, 56, rfl⟩
abbrev main_v12 : Ref sig .tc := ⟨.hbm, 57, rfl⟩
abbrev main_cst_2 : Ref sig .tc := ⟨.hbm, 58, rfl⟩
abbrev main_call3_v0 : Ref sig .tc := ⟨.hbm, 59, rfl⟩
abbrev main_call3_v1 : Ref sig .tc := ⟨.hbm, 60, rfl⟩
abbrev main_v13 : Ref sig .tc := ⟨.hbm, 61, rfl⟩
abbrev main_cst_3 : Ref sig .tc := ⟨.hbm, 62, rfl⟩
abbrev main_v14 : Ref sig .tc := ⟨.hbm, 63, rfl⟩
abbrev main_v15 : Ref sig .tc := ⟨.hbm, 64, rfl⟩
abbrev main_v16 : Ref sig .tc := ⟨.hbm, 65, rfl⟩
abbrev main_c_4 : Ref sig .tc := ⟨.hbm, 66, rfl⟩
abbrev main_v17 : Ref sig .tc := ⟨.hbm, 67, rfl⟩
abbrev main_call4_v0 : Ref sig .tc := ⟨.hbm, 68, rfl⟩
abbrev main_call4_c : Ref sig .tc := ⟨.hbm, 69, rfl⟩
abbrev main_call4_v1 : Ref sig .tc := ⟨.hbm, 70, rfl⟩
abbrev main_call4_v2 : Ref sig .tc := ⟨.hbm, 71, rfl⟩
abbrev main_call4_v3 : Ref sig .tc := ⟨.hbm, 72, rfl⟩
abbrev main_call4_v4 : Ref sig .tc := ⟨.hbm, 73, rfl⟩
abbrev main_call4_c_0 : Ref sig .tc := ⟨.hbm, 74, rfl⟩
abbrev main_call4_v5 : Ref sig .tc := ⟨.hbm, 75, rfl⟩
abbrev main_v18 : Ref sig .tc := ⟨.hbm, 76, rfl⟩
abbrev main_v19 : Ref sig .tc := ⟨.hbm, 77, rfl⟩
abbrev main_v20 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_cst_5 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_call5_cst : Ref sig .tc := ⟨.hbm, 96, rfl⟩
abbrev main_call5_v0 : Ref sig .tc := ⟨.hbm, 97, rfl⟩
abbrev main_call5_v1 : Ref sig .tc := ⟨.hbm, 98, rfl⟩
abbrev main_call5_v2 : Ref sig .tc := ⟨.hbm, 99, rfl⟩
abbrev main_call5_v3 : Ref sig .tc := ⟨.hbm, 100, rfl⟩
abbrev main_call5_v4 : Ref sig .tc := ⟨.hbm, 101, rfl⟩
abbrev main_call5_v5 : Ref sig .tc := ⟨.hbm, 102, rfl⟩
abbrev main_call5_v6 : Ref sig .tc := ⟨.hbm, 103, rfl⟩
abbrev main_call5_v7 : Ref sig .tc := ⟨.hbm, 104, rfl⟩
abbrev main_call5_v8 : Ref sig .tc := ⟨.hbm, 105, rfl⟩
abbrev main_call5_v9 : Ref sig .tc := ⟨.hbm, 106, rfl⟩
abbrev main_call5_v10 : Ref sig .tc := ⟨.hbm, 107, rfl⟩
abbrev main_call5_v11 : Ref sig .tc := ⟨.hbm, 108, rfl⟩
abbrev main_v37 : Ref sig .tc := ⟨.hbm, 109, rfl⟩
abbrev main_v38 : Ref sig .tc := ⟨.hbm, 110, rfl⟩
abbrev main_cst_6 : Ref sig .tc := ⟨.hbm, 111, rfl⟩
abbrev main_call6_v0 : Ref sig .tc := ⟨.hbm, 112, rfl⟩
abbrev main_call6_v1 : Ref sig .tc := ⟨.hbm, 113, rfl⟩
abbrev main_v39 : Ref sig .tc := ⟨.hbm, 114, rfl⟩
abbrev main_cst_7 : Ref sig .tc := ⟨.hbm, 115, rfl⟩
abbrev main_v40 : Ref sig .tc := ⟨.hbm, 116, rfl⟩
abbrev main_cst_8 : Ref sig .tc := ⟨.hbm, 117, rfl⟩
abbrev main_v41 : Ref sig .tc := ⟨.hbm, 118, rfl⟩
abbrev main_cst_9 : Ref sig .tc := ⟨.hbm, 119, rfl⟩
abbrev main_v42 : Ref sig .tc := ⟨.hbm, 120, rfl⟩
abbrev main_cst_10 : Ref sig .tc := ⟨.hbm, 121, rfl⟩
abbrev main_v43 : Ref sig .tc := ⟨.hbm, 122, rfl⟩
abbrev main_v44 : Ref sig .tc := ⟨.hbm, 123, rfl⟩

abbrev nD : Nat := 1
abbrev τ : Topo := Topo.v7x

variable {F : FTy → Type} [FloatOps F]

class Facts₀ : Prop where
  shapeCasts_S4x1024x32000_S4096x32000 : S4x1024x32000.ShapeCasts S4096x32000
  shapeCasts_S4x1024_S4096 : S4x1024.ShapeCasts S4096
  bcast_S_S4096 : S_.BroadcastsInDim S4096 (![] : Fin 0 → Fin S4096.rank)
  reducesTo_S4096x32000_S4096_d1 : S4096x32000.ReducesTo [1] S4096
  h_S_ : 0 < S_.numel
  bcast_S4096_S4096x1_0 : S4096.BroadcastsInDim S4096x1 (![0] : Fin 1 → Fin S4096x1.rank)
  bcast_S4096x1_S4096x32000_0_1 : S4096x1.BroadcastsInDim S4096x32000 (![0, 1] : Fin 2 → Fin S4096x32000.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  shapeCasts_S4096x1_S4096 : S4096x1.ShapeCasts S4096
  reducesTo_S4096_S_d0 : S4096.ReducesTo [0] S_
  bcast_S_S64x64 : S_.BroadcastsInDim S64x64 (![] : Fin 0 → Fin S64x64.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  reducesTo_S64x64_S_d0_1 : S64x64.ReducesTo [0, 1] S_
  gather_S4096x32000_S4096x1x1_S4096x1_n_1_0_0_1_2_11_wf : GatherDims.WF S4096x32000 S4096x1x1 S4096x1 [] [1] [0] [1] [0] 2 ![1, 1]

variable [Facts₀]

def gather_S4096x32000_S4096x1x1_S4096x1_n_1_0_0_1_2_11 : GatherDims S4096x32000 S4096x1x1 S4096x1 where
  offsetDims := []
  collapsedSliceDims := [1]
  operandBatchingDims := [0]
  startIndicesBatchingDims := [0]
  startIndexMap := [1]
  indexVectorDim := 2
  sliceSizes := ![1, 1]
  wf := gather_S4096x32000_S4096x1x1_S4096x1_n_1_0_0_1_2_11_wf

class Facts : Prop extends Facts₀ where

variable [Facts]
-- ==== Proof.Spec.lean ====
/-
  The mathematics both programs compute, stated once over extended reals and label words.

  A row of logits x : Fin 32000 → [-∞, +∞] with label word l contributes, when l is not the ignore word −100,
  its negative log-likelihood  (max x + log Σ_j exp (x_j − max x)) − x_l,  and nothing when l = −100.  The language-model
  loss is the sum of the contributions over the 4096 rows divided by max(number of counted rows, 1); the result is
  1·(that loss) + 10·(the pairwise ranking loss), the ranking loss entering as an opaque extended real.
  The rows are the [4, 1024, 32000] logits read as [4096, 32000] (row r is (r / 1024, r % 1024)), the labels likewise.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx
open scoped BigOperators

/-- The ignore label, −100 as a 32-bit word. -/
abbrev ign : BitVec 32 := 4294967196#32

/-- The largest entry of a row: the fold of `max` from −∞ over its 32000 columns. -/
def rowMax (x : Fin 32000 → EReal) : EReal := (Finset.univ : Finset (Fin 32000)).fold max ⊥ x

/-- Σ_j exp (x_j − max x). -/
def rowSumExp (x : Fin 32000 → EReal) : EReal := ∑ j : Fin 32000, Ideal.exp (x j - rowMax x)

/-- The negative log-likelihood of column `k` of a row: (max x + log Σ_j exp (x_j − max x)) − x_k. -/
def nll (x : Fin 32000 → EReal) (k : Fin 32000) : EReal := (rowMax x + Ideal.log (rowSumExp x)) - x k

/-- 1 for a counted row, 0 for an ignored one. -/
def validF (l : BitVec 32) : EReal := if l = ign then 0 else 1

/-- The column a label word names (labels in range name themselves). -/
def colFin (l : BitVec 32) : Fin 32000 := ⟨l.toNat % 32000, Nat.mod_lt _ (by norm_num)⟩

/-- A row's contribution to the loss sum: its negative log-likelihood at its label when counted, 0 when ignored. -/
def rowLoss (x : Fin 32000 → EReal) (l : BitVec 32) : EReal := if l = ign then 0 else nll x (colFin l)

/-- The f32 word of 1.0 read at the extended reals (kept as the word: both programs carry the same one). -/
abbrev one32 : EReal := Ideal.ofBits .f32 0x3F800000#32
/-- The f32 word of 10.0 read at the extended reals. -/
abbrev ten32 : EReal := Ideal.ofBits .f32 0x41200000#32

/-- The language-model loss from the loss sum and the count of counted rows: sum / max(count, 1). -/
def lmOf (s cnt : EReal) : EReal := Ideal.div s (max cnt one32)

/-- The mean negative log-likelihood over the counted rows of `L` with labels `Y`. -/
def lmLoss (L : Fin 4096 → Fin 32000 → EReal) (Y : Fin 4096 → BitVec 32) : EReal :=
  lmOf (∑ r : Fin 4096, rowLoss (L r) (Y r)) (∑ r : Fin 4096, validF (Y r))

/-- The result: 1·lm + 10·rank. -/
def total (lm rank : EReal) : EReal := one32 * lm + ten32 * rank

/-- Row `r` of the [4, 1024, 32000] logits read as [4096, 32000]. -/
def rows2d (a0 : (⟨3, ![4, 1024, 32000]⟩ : Shape).Idx → EReal) (r : Fin 4096) (j : Fin 32000) : EReal :=
  a0 (ix3 (⟨r.val / 1024, by have := r.isLt; omega⟩ : Fin 4) (⟨r.val % 1024, Nat.mod_lt _ (by norm_num)⟩ : Fin 1024) j)

/-- Label `r` of the [4, 1024] labels read as [4096]. -/
def labs1d (a1 : (⟨2, ![4, 1024]⟩ : Shape).Idx → BitVec 32) (r : Fin 4096) : BitVec 32 :=
  a1 (ix2 (⟨r.val / 1024, by have := r.isLt; omega⟩ : Fin 4) (⟨r.val % 1024, Nat.mod_lt _ (by norm_num)⟩ : Fin 1024))

end Cert.Spec

end
-- ==== Proof.KKit.lean ====
/-
  The launch side of `Kernel`'s run, around its one pallas_call: the contents the region finds after the two reshapes
  before it, @main as those lines, the region, and the seventy-two host lines after it in seven stretches; that the later
  lines touch only unscoped buffers, allocate nothing, and write neither a window's array nor an argument; each window's
  block at a grid point; the frame claim's post read off a frame run; the one branch of the body (taken exactly at the
  first step of each half of the grid, where the two accumulators are reset) decided over the grid.
-/
import proofs.«426438_j56418690400290_3_alg».proof.Proof.Gen.Kernel.Launch
import proofs.«426438_j56418690400290_3_alg».proof.Proof.Gen.Kernel.Skeleton
import proofs.«426438_j56418690400290_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, in their seven stretches. -/
abbrev tailOps : List (List (HloOp τ sig (Elt F))) :=
  [hostOps1, hostOps1_1, hostOps1_2, hostOps1_3, hostOps1_4, hostOps1_5, hostOps1_6]

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, and the lines after it: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline: each writes only its own result buffer, which is none of the four. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arguments end as launched: none is a window's array, so each is read off the post's clause for the buffers
    that bypass the region, as the later lines leave it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch -/

/-- The body's one branch: the second grid coordinate is zero (the first step of a half: the accumulators are reset). -/
abbrev cond0_0 (i : grid0.Coords) : Prop := (Scalar.cmpi .ne (Scalar.extui (Scalar.cmpi .eq (BitVec.ofNat 32 (i 1).val) 0#32)) 0#32) = 1#1
/-- It holds at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs at a point -/

/-- One staging buffer of each output window, through which its contents are stated. -/
abbrev VO0_2 : View sig .tc .vmem S1x1x1 .f32 := (Memref.whole cc0_stg2_0 : Memref sig .tc .vmem S1x1x1 .f32).view
abbrev VO0_3 : View sig .tc .vmem S1x1x1 .f32 := (Memref.whole cc0_stg3_0 : Memref sig .tc .vmem S1x1x1 .f32).view
/-- Each window's current staging memref at point `t`, as the pipeline passes it, and its wholeness. -/
abbrev ms0_0 (t : Fin cfg0.N) : Memref sig .tc .vmem S32x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.Kernel.Fr

end
-- ==== Proof.KRunA.lean ====
/-
  The kernel body of `Kernel` run once on whole staging memrefs, at a grid point where the branch is taken (the first step of a half: both accumulators are first stored zero, then read back and added to):
  the two inputs' buffers are read and handed back as they were; each accumulator's buffer ends with the pieces the body's
  stores wrote, which the run finds.
-/
import proofs.«426438_j56418690400290_3_alg».proof.Proof.KKit

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each accumulator's staging buffer ends with (last store first), with the proof that the body, from the
    inputs' buffers at `x0`, `x1` and the accumulators' at anything, runs to the continuation holding the inputs' as they
    were and each accumulator's with its pieces written. -/
noncomputable def kernelRun0_A (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ce_kernel i arg2 harg2 arg3 harg3 arg4 harg4 arg5 harg5) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.KRunB.lean ====
/-
  The kernel body of `Kernel` run once on whole staging memrefs, at a grid point where the branch is not taken (a later step of a half: both accumulators are read as the step before left them and added to):
  the two inputs' buffers are read and handed back as they were; each accumulator's buffer ends with the pieces the body's
  stores wrote, which the run finds.
-/
import proofs.«426438_j56418690400290_3_alg».proof.Proof.KRunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each accumulator's staging buffer ends with (last store first), with the proof that the body, from the
    inputs' buffers at `x0`, `x1` and the accumulators' at `xo2`, `xo3`, runs to the continuation holding the inputs' as they
    were and each accumulator's with its pieces written. -/
noncomputable def kernelRun0_B (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ce_kernel i arg2 harg2 arg3 harg3 arg4 harg4 arg5 harg5) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.Kernel.Fr

end
-- ==== Proof.KFrame.lean ====
/-
  The frame run of `Kernel`: what the two accumulators' staging buffers hold after each grid point — at the first step of
  a half the reset-then-add case's pieces read back, at a later step the add case's pieces over what the step before
  left —, the pipeline's proof data over them, the body's obligation at every point (the step before's contents are
  still in the buffer: no write-back between, except at the end of a half, after which comes a reset), the launch around
  the region with the later host lines, and the frame claim.
-/
import proofs.«426438_j56418690400290_3_alg».proof.Proof.KRunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators' buffers -/

theorem cover0_A_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem cover0_A_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y

/-- What the reset-then-add case leaves in the loss accumulator's buffer: its pieces read back. -/
def out0_A_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) : Vec F S1x1x1 .f32 :=
  VO0_2.read (Elt F) (VO0_2.writes (Elt F) VO0_2.junk (kernelRun0_A c i arg2 harg2 arg3 harg3 arg4 harg4 arg5 harg5 hc0 x0 x1).1)

/-- What it leaves in the count accumulator's buffer. -/
def out0_A_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) : Vec F S1x1x1 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y

theorem cover0_B_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-- What the add case leaves in the loss accumulator's buffer, over the step before's contents `xo2`. -/
def out0_B_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) : Vec F S1x1x1 .f32 :=
  VO0_2.read (Elt F) (VO0_2.writes (Elt F) VO0_2.junk (kernelRun0_B c i arg2 harg2 arg3 harg3 arg4 harg4 arg5 harg5 hc0 x0 x1 xo2 xo3).1)

/-- What it leaves in the count accumulator's buffer, over `xo3`. -/
def out0_B_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The accumulation: the pair (loss accumulator, count accumulator) after the body at position `n`. -/
def outsAt0 (c : Dev nD) : (n : ℕ) → n < cfg0.N → Vec F S1x1x1 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At the first step of a half: the reset-then-add case's contents. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At a later step: the add case's contents, over what the step before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at
    its block and the accumulators' at `outsAt0`; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later step of a half the loss accumulator's buffer holds what the body left at the step before: the point is
    not the first, and the buffer was not written back between (write-backs come only after the last step of a half). -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the count accumulator. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; at the first step of a half the reset-then-add run
    applies from any accumulator contents, at a later step the add run from what the step before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 64 = 0
  · rw [outsAt0_A m c t h0]
    unfold out0_A_2 out0_A_3
    dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3
    dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the lines after the region
    leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: the program runs to the end and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KIKit.lean ====
/-
  The launch side of `KernelIdeal`'s run, around its one pallas_call: the contents the region finds after the two reshapes
  before it, @main as those lines, the region, and the seventy-two host lines after it in seven stretches; that the later
  lines touch only unscoped buffers, allocate nothing, and write neither a window's array nor an argument; each window's
  block at a grid point; the frame claim's post read off a frame run; the one branch of the body (taken exactly at the
  first step of each half of the grid, where the two accumulators are reset) decided over the grid.
-/
import proofs.«426438_j56418690400290_3_alg».proof.Proof.Gen.KernelIdeal.Launch
import proofs.«426438_j56418690400290_3_alg».proof.Proof.Gen.KernelIdeal.Skeleton
import proofs.«426438_j56418690400290_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The host lines after the region, in their seven stretches. -/
abbrev tailOps : List (List (HloOp τ sig (Elt F))) :=
  [hostOps1, hostOps1_1, hostOps1_2, hostOps1_3, hostOps1_4, hostOps1_5, hostOps1_6]

/-- Core `c`'s buffer contents when the region is entered: after the two reshapes before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, and the lines after it: it reduces to the region continued by the
    later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- The later lines touch the pipeline's arrays and the buffers that bypass the region only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
/-- And write no array of the pipeline: each writes only its own result buffer, which is none of the four. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · simp only [hostOps1, List.mem_cons, List.mem_nil_iff, or_false] at hop
    rcases hop with rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_1, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_3, List.mem_cons, List.mem_nil_iff, or_false] at hop
    rcases hop with rfl | rfl | rfl | rfl | rfl | rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_4, List.mem_cons, List.mem_nil_iff, or_false] at hop
    rcases hop with rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_5, List.mem_cons, List.mem_nil_iff, or_false] at hop
    rcases hop with rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)
  · simp only [hostOps1_6, List.mem_cons, List.mem_nil_iff, or_false] at hop
    rcases hop with rfl | rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- Neither reshape before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) tailOps c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- Neither reshape before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) tailOps c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- Neither reshape before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) tailOps c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- Neither reshape before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No line after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) tailOps c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, hostOps1_3, hostOps1_4, hostOps1_5, hostOps1_6, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The four arguments end as launched: none is a window's array, so each is read off the post's clause for the buffers
    that bypass the region, as the later lines leave it. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_arg0 (Pipeline.mem_restRefs_of main_arg0 (by decide) (by decide))).trans (W_main_arg0 m dats c),
    ((h c).2 main_arg1 (Pipeline.mem_restRefs_of main_arg1 (by decide) (by decide))).trans (W_main_arg1 m dats c),
    ((h c).2 main_arg2 (Pipeline.mem_restRefs_of main_arg2 (by decide) (by decide))).trans (W_main_arg2 m dats c),
    ((h c).2 main_arg3 (Pipeline.mem_restRefs_of main_arg3 (by decide) (by decide))).trans (W_main_arg3 m dats c)⟩) h

/-! ## The body's branch -/

/-- The body's one branch: the second grid coordinate is zero (the first step of a half: the accumulators are reset). -/
abbrev cond0_0 (i : grid0.Coords) : Prop := (Scalar.cmpi .ne (Scalar.extui (Scalar.cmpi .eq (BitVec.ofNat 32 (i 1).val) 0#32)) 0#32) = 1#1
/-- It holds at the points ≡ 0 (mod 64). -/
theorem hcond0_0 : ∀ t : Fin cfg0.N, cond0_0 (grid0.coords t) ↔ t.val % 64 = 0 :=
  (by decide +kernel : ∀ t : Fin grid0.N, cond0_0 (grid0.coords t) ↔ t.val % 64 = 0)

/-! ## The staging memrefs at a point -/

/-- One staging buffer of each output window, through which its contents are stated. -/
abbrev VO0_2 : View sig .tc .vmem S1x1x1 .f32 := (Memref.whole cc0_stg2_0 : Memref sig .tc .vmem S1x1x1 .f32).view
abbrev VO0_3 : View sig .tc .vmem S1x1x1 .f32 := (Memref.whole cc0_stg3_0 : Memref sig .tc .vmem S1x1x1 .f32).view
/-- Each window's current staging memref at point `t`, as the pipeline passes it, and its wholeness. -/
abbrev ms0_0 (t : Fin cfg0.N) : Memref sig .tc .vmem S32x32000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)

end Cert.KernelIdeal.Fr

end
-- ==== Proof.KIRunA.lean ====
/-
  The kernel body of `KernelIdeal` run once on whole staging memrefs, at a grid point where the branch is taken (the first step of a half: both accumulators are first stored zero, then read back and added to):
  the two inputs' buffers are read and handed back as they were; each accumulator's buffer ends with the pieces the body's
  stores wrote, which the run finds.
-/
import proofs.«426438_j56418690400290_3_alg».proof.Proof.KIKit

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each accumulator's staging buffer ends with (last store first), with the proof that the body, from the
    inputs' buffers at `x0`, `x1` and the accumulators' at anything, runs to the continuation holding the inputs' as they
    were and each accumulator's with its pieces written. -/
noncomputable def kernelRun0_A (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ce_kernel i arg2 harg2 arg3 harg3 arg4 harg4 arg5 harg5) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%d2, %f2, -, H2⟩, ⟨%d3, %f3, -, H3⟩, Hk⟩
    obtain rfl := harg2.eq_unread hf0; obtain rfl := harg3.eq_unread hf1
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KIRunB.lean ====
/-
  The kernel body of `KernelIdeal` run once on whole staging memrefs, at a grid point where the branch is not taken (a later step of a half: both accumulators are read as the step before left them and added to):
  the two inputs' buffers are read and handed back as they were; each accumulator's buffer ends with the pieces the body's
  stores wrote, which the run finds.
-/
import proofs.«426438_j56418690400290_3_alg».proof.Proof.KIRunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces each accumulator's staging buffer ends with (last store first), with the proof that the body, from the
    inputs' buffers at `x0`, `x1` and the accumulators' at `xo2`, `xo3`, runs to the continuation holding the inputs' as they
    were and each accumulator's with its pieces written. -/
noncomputable def kernelRun0_B (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) :
    Σ' (L2 : List (View.Piece (Elt F) S1x1x1 .f32)), { L3 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare xo2 ∗ owns (c : Thread nD τ) arg5 fullShare xo3
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f L2)
                ∗ (∃ f, arg5.view.loc (c : Thread nD τ) ↦[arg5.view.set]{fullShare} arg5.view.writes (Elt F) f L3)) -∗ K ⟨⟩))
          ⊢ wp frame (wpE (defs₀ (F := F)) Variants.none c none) E (cc0__ce_kernel i arg2 harg2 arg3 harg3 arg4 harg4 arg5 harg5) K } := by
  refine ⟨?_, ?_, fun E K => ?run⟩
  case run =>
    simp only [cc0__ce_kernel_eq_skeleton]; unfold cc0__ce_kernel_skel
    simp only [k0_part1_eq_skeleton]
    unfold owns
    iintro ⟨⟨%f0, %hf0, H0⟩, ⟨%f1, %hf1, H1⟩, ⟨%f2, %hf2, H2⟩, ⟨%f3, %hf3, H3⟩, Hk⟩
    obtain rfl := harg2.eq_unread hf0; obtain rfl := harg3.eq_unread hf1; obtain rfl := harg4.eq_unread hf2; obtain rfl := harg5.eq_unread hf3
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexists _; iexact H3

end Cert.KernelIdeal.Fr

end
-- ==== Proof.KIFrame.lean ====
/-
  The frame run of `KernelIdeal`: what the two accumulators' staging buffers hold after each grid point — at the first step of
  a half the reset-then-add case's pieces read back, at a later step the add case's pieces over what the step before
  left —, the pipeline's proof data over them, the body's obligation at every point (the step before's contents are
  still in the buffer: no write-back between, except at the end of a half, after which comes a reset), the launch around
  the region with the later host lines, and the frame claim.
-/
import proofs.«426438_j56418690400290_3_alg».proof.Proof.KIRunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves in the accumulators' buffers -/

theorem cover0_A_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) (y : S1x1x1.Idx) :
    ∃ pc ∈ (kernelRun0_A c i arg2 harg2 arg3 harg3 arg4 harg4 arg5 harg5 hc0 x0 x1).1, y ∈ pc.1.set :=
  View.cover_of_tiledL (kernelRun0_A c i arg2 harg2 arg3 harg3 arg4 harg4 arg5 harg5 hc0 x0 x1).1 S1x1x1.size (by sl_kernel_rfl) y

theorem cover0_A_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) (y : S1x1x1.Idx) :
    ∃ pc ∈ (kernelRun0_A c i arg2 harg2 arg3 harg3 arg4 harg4 arg5 harg5 hc0 x0 x1).2.1, y ∈ pc.1.set :=
  View.cover_of_tiledL (kernelRun0_A c i arg2 harg2 arg3 harg3 arg4 harg4 arg5 harg5 hc0 x0 x1).2.1 S1x1x1.size (by sl_kernel_rfl) y

/-- What the reset-then-add case leaves in the loss accumulator's buffer: its pieces read back. -/
def out0_A_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) : Vec F S1x1x1 .f32 :=
  VO0_2.read (Elt F) (VO0_2.writes (Elt F) VO0_2.junk (kernelRun0_A c i arg2 harg2 arg3 harg3 arg4 harg4 arg5 harg5 hc0 x0 x1).1)

/-- What it leaves in the count accumulator's buffer. -/
def out0_A_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) : Vec F S1x1x1 .f32 :=
  VO0_3.read (Elt F) (VO0_3.writes (Elt F) VO0_3.junk (kernelRun0_A c i arg2 harg2 arg3 harg3 arg4 harg4 arg5 harg5 hc0 x0 x1).2.1)

theorem cover0_B_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).1, y ∈ pc.1.set :=
  View.cover_of_tiledL (kernelRun0_B c i arg2 harg2 arg3 harg3 arg4 harg4 arg5 harg5 hc0 x0 x1 xo2 xo3).1 S1x1x1.size (by sl_kernel_rfl) y

theorem cover0_B_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) (y : S1x1x1.Idx) :
    ∃ pc ∈ (kernelRun0_B c i arg2 harg2 arg3 harg3 arg4 harg4 arg5 harg5 hc0 x0 x1 xo2 xo3).2.1, y ∈ pc.1.set :=
  View.cover_of_tiledL (kernelRun0_B c i arg2 harg2 arg3 harg3 arg4 harg4 arg5 harg5 hc0 x0 x1 xo2 xo3).2.1 S1x1x1.size (by sl_kernel_rfl) y

/-- What the add case leaves in the loss accumulator's buffer, over the step before's contents `xo2`. -/
def out0_B_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) : Vec F S1x1x1 .f32 :=
  VO0_2.read (Elt F) (VO0_2.writes (Elt F) VO0_2.junk (kernelRun0_B c i arg2 harg2 arg3 harg3 arg4 harg4 arg5 harg5 hc0 x0 x1 xo2 xo3).1)

/-- What it leaves in the count accumulator's buffer, over `xo3`. -/
def out0_B_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) : Vec F S1x1x1 .f32 :=
  VO0_3.read (Elt F) (VO0_3.writes (Elt F) VO0_3.junk (kernelRun0_B c i arg2 harg2 arg3 harg3 arg4 harg4 arg5 harg5 hc0 x0 x1 xo2 xo3).2.1)

/-! ## What the accumulators hold after each point -/

/-- The accumulation: the pair (loss accumulator, count accumulator) after the body at position `n`. -/
def outsAt0 (c : Dev nD) : (n : ℕ) → n < cfg0.N → Vec F S1x1x1 .f32 × Vec F S1x1x1 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩), out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) ((hcond0_0 ⟨0, hn⟩).mpr (Nat.zero_mod _)) (iblk m c 0 ⟨0, hn⟩) (iblk m c 1 ⟨0, hn⟩))
  | n + 1, hn =>
    if h0 : (n + 1) % 64 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩), out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) ((hcond0_0 ⟨n + 1, hn⟩).mpr h0) (iblk m c 0 ⟨n + 1, hn⟩) (iblk m c 1 ⟨n + 1, hn⟩))
    else
      (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2, out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (fun h => h0 ((hcond0_0 ⟨n + 1, hn⟩).mp h)) (iblk m c 0 ⟨n + 1, hn⟩) (iblk m c 1 ⟨n + 1, hn⟩) (outsAt0 c n (Nat.lt_of_succ_lt hn)).1 (outsAt0 c n (Nat.lt_of_succ_lt hn)).2)

/-- At the first step of a half: the reset-then-add case's contents. -/
theorem outsAt0_A (c : Dev nD) (t : Fin cfg0.N) (h0 : t.val % 64 = 0) :
    outsAt0 m c t.val t.isLt = (out0_A_2 c (grid0.coords t) (ms0_0 t) (hs0_0 t) (ms0_1 t) (hs0_1 t) (ms0_2 t) (hs0_2 t) (ms0_3 t) (hs0_3 t) ((hcond0_0 t).mpr h0) (iblk m c 0 t) (iblk m c 1 t), out0_A_3 c (grid0.coords t) (ms0_0 t) (hs0_0 t) (ms0_1 t) (hs0_1 t) (ms0_2 t) (hs0_2 t) (ms0_3 t) (hs0_3 t) ((hcond0_0 t).mpr h0) (iblk m c 0 t) (iblk m c 1 t)) := by
  obtain ⟨n, hn⟩ := t
  cases n with
  | zero => exact rfl
  | succ n => exact (dif_pos h0).trans rfl

/-- At a later step: the add case's contents, over what the step before left. -/
theorem outsAt0_B (c : Dev nD) (t : Fin cfg0.N) (h0 : ¬t.val % 64 = 0) :
    outsAt0 m c t.val t.isLt = (out0_B_2 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2, out0_B_3 c (grid0.coords t) (ms0_0 t) (hs0_0 t) (ms0_1 t) (hs0_1 t) (ms0_2 t) (hs0_2 t) (ms0_3 t) (hs0_3 t) (fun h => h0 ((hcond0_0 t).mp h)) (iblk m c 0 t) (iblk m c 1 t) (outsAt0 m c (t.val - 1) (Nat.lt_of_le_of_lt (Nat.sub_le _ _) t.isLt)).1 (outsAt0 m c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-! ## The pipeline's proof data -/

/-- The proof data on core `c`: the arrays as the region finds them; after the body at point `t` each input's buffer at
    its block and the accumulators' at `outsAt0`; the invariant the scoped rest and the generator register; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
    | ⟨3, _⟩ => (outsAt0 m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem after0_3 (c : Dev nD) (t : Fin cfg0.N) : (dats m 0 c).after 3 t = (outsAt0 m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- At a later step of a half the loss accumulator's buffer holds what the body left at the step before: the point is
    not the first, and the buffer was not written back between (write-backs come only after the last step of a half). -/
theorem before0_2_B (c : Dev nD) (t : Fin cfg0.N) (h0 : ¬t.val % 64 = 0) (d) :
    (dats m 0 c).before 2 t d = (outsAt0 m c (t.val - 1) (Nat.lt_of_le_of_lt (Nat.sub_le _ _) t.isLt)).1 := by
  have hN : t.val < 128 := lt_of_lt_of_eq t.isLt (show cfg0.N = 128 from N_0)
  rw [Dat.before_out_kept _ 2 rfl t (by omega) (Bool.eq_false_iff.mpr fun h => by have := (flush0_2 _).mp h; dsimp only at this; omega)
    (fun _ => rfl) (fun _ _ => rfl)]
  dsimp only [dats]
/-- The same for the count accumulator. -/
theorem before0_3_B (c : Dev nD) (t : Fin cfg0.N) (h0 : ¬t.val % 64 = 0) (d) :
    (dats m 0 c).before 3 t d = (outsAt0 m c (t.val - 1) (Nat.lt_of_le_of_lt (Nat.sub_le _ _) t.isLt)).2 := by
  have hN : t.val < 128 := lt_of_lt_of_eq t.isLt (show cfg0.N = 128 from N_0)
  rw [Dat.before_out_kept _ 3 rfl t (by omega) (Bool.eq_false_iff.mpr fun h => by have := (flush0_3 _).mp h; dsimp only at this; omega)
    (fun _ => rfl) (fun _ _ => rfl)]
  dsimp only [dats]

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 1600000 in
/-- The body at any point: the inputs' buffers hold their blocks; at the first step of a half the reset-then-add run
    applies from any accumulator contents, at a later step the add run from what the step before left. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3]
  have hN : t.val < 128 := lt_of_lt_of_eq t.isLt (show cfg0.N = 128 from N_0)
  by_cases h0 : t.val % 64 = 0
  · rw [outsAt0_A m c t h0]
    unfold out0_A_2 out0_A_3
    dsimp only
    iintro ⟨HΦ, Ho, ⟨%d0, H0⟩, ⟨%d1, H1⟩, ⟨%d2, H2⟩, ⟨%d3, H3⟩⟩
    iapply ((kernelRun0_A c (grid0.coords t) _ _ _ _ _ _ _ _ ((hcond0_0 t).mpr h0) (iblk m c 0 t) (iblk m c 1 t)).2.2 Set.univ _)
    isplitl [H0]; · iexact H0
    isplitl [H1]; · iexact H1
    isplitl [H2]; · iexists _; iexact H2
    isplitl [H3]; · iexists _; iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_A_2 c _ _ _ _ _ _ _ _ _ _ _ _)
    unfold owns; iexists _; isplitr
    swap; · iexact H3
    ipureintro; exact View.read_writes_of_cover _ _ _ _ _ (cover0_A_3 c _ _ _ _ _ _ _ _ _ _ _ _)
  · rw [outsAt0_B m c t h0]
    simp only [before0_2_B m c t h0, before0_3_B m c t h0]
    unfold out0_B_2 out0_B_3
    dsimp only
    iintro ⟨HΦ, Ho, ⟨%d0, H0⟩, ⟨%d1, H1⟩, ⟨%d2, H2⟩, ⟨%d3, H3⟩⟩
    iapply ((kernelRun0_B c (grid0.coords t) _ _ _ _ _ _ _ _ (fun h => h0 ((hcond0_0 t).mp h)) (iblk m c 0 t) (iblk m c 1 t) _ _).2.2 Set.univ _)
    isplitl [H0]; · iexact H0
    isplitl [H1]; · iexact H1
    isplitl [H2]; · iexact H2
    isplitl [H3]; · iexact H3
    iintro ⟨H0, H1, ⟨%e2, H2⟩, ⟨%e3, H3⟩⟩
    isplitl [HΦ]; · iexact HΦ
    isplitl [Ho]; · iexact Ho
    isplitl [H0]; · iexact H0
    isplitl [H1]; · iexact H1
    isplitl [H2]
    · unfold owns; iexists _; isplitr
      swap; · iexact H2
      ipureintro; exact View.read_writes_of_cover _ _ _ _ _ (cover0_B_2 c _ _ _ _ _ _ _ _ _ _ _ _ _ _)
    unfold owns; iexists _; isplitr
    swap; · iexact H3
    ipureintro; exact View.read_writes_of_cover _ _ _ _ _ (cover0_B_3 c _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main terminates, and every final state has every
    array of the pipeline at what the proof data computes and every other unscoped buffer as the lines after the region
    leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- The frame claim at any `F`: the program runs to the end and its four arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.RowMath.lean ====
/-
  Extended-real analysis of one row of logits, and the regrouping of the 4096 rows.
-/
import proofs.«426438_j56418690400290_3_alg».proof.Proof.Spec
import Mathlib.Data.Finset.Fold
import Mathlib.Data.EReal.Operations
import Mathlib.Algebra.BigOperators.Group.Finset.Basic
import Mathlib.Algebra.BigOperators.Fin
import Mathlib.Algebra.Order.BigOperators.Group.Finset

noncomputable section

namespace Cert.RowMath

open Idealize.ShloMosaic Cert.Spec
open scoped BigOperators

/-- The fold of `max` from −∞ over a nonempty finite family of reals is a real:
    a single entry is its own maximum, and adjoining an entry takes the larger of two reals. -/
private theorem fold_max_coe {ι : Type*} (g : ι → ℝ) (s : Finset ι) (hs : s.Nonempty) :
    ∃ M : ℝ, s.fold max ⊥ (fun j => (g j : EReal)) = (M : EReal) := by
  induction hs using Finset.Nonempty.cons_induction with
  | singleton a =>
    exact ⟨g a, by rw [Finset.fold_singleton]; exact max_bot_right _⟩
  | cons a s ha hs ih =>
    obtain ⟨M, hM⟩ := ih
    refine ⟨max (g a) M, ?_⟩
    rw [Finset.fold_cons, hM]
    exact (EReal.coe_strictMono.monotone.map_max).symm

/-- A finite sum of reals read at the extended reals is the extended-real sum of the entries. -/
private theorem coe_sum {ι : Type*} (s : Finset ι) (h : ι → ℝ) :
    (∑ j ∈ s, (h j : EReal)) = ((∑ j ∈ s, h j : ℝ) : EReal) := by
  classical
  induction s using Finset.induction_on with
  | empty => simp
  | insert a s ha ih => rw [Finset.sum_insert ha, Finset.sum_insert ha, ih, EReal.coe_add]

/-- A row of reals has a real maximum. -/
theorem rowMax_real (x : Fin 32000 → EReal) (hx : ∀ j, ∃ r : ℝ, x j = (r : EReal)) :
    ∃ M : ℝ, rowMax x = (M : EReal) := by
  choose g hg using hx
  have hxg : x = fun j => (g j : EReal) := funext hg
  obtain ⟨M, hM⟩ := fold_max_coe g (Finset.univ : Finset (Fin 32000))
    ⟨⟨0, by norm_num⟩, Finset.mem_univ _⟩
  exact ⟨M, by rw [rowMax, hxg]; exact hM⟩

/-- Σ_j exp (x_j − max x) of a row of reals is a positive real. -/
theorem rowSumExp_real (x : Fin 32000 → EReal) (hx : ∀ j, ∃ r : ℝ, x j = (r : EReal)) :
    ∃ S : ℝ, 0 < S ∧ rowSumExp x = (S : EReal) := by
  obtain ⟨M, hM⟩ := rowMax_real x hx
  choose g hg using hx
  refine ⟨∑ j : Fin 32000, Real.exp (g j - M), ?_, ?_⟩
  · -- every term exp (x_j − M) is positive and there is at least one column
    exact Finset.sum_pos (fun j _ => Real.exp_pos _) ⟨⟨0, by norm_num⟩, Finset.mem_univ _⟩
  · -- termwise: exp of the real x_j − M is the real exponential
    rw [rowSumExp, ← coe_sum]
    refine Finset.sum_congr rfl fun j _ => ?_
    rw [hM, hg j, ← EReal.coe_sub, Ideal.exp_coe]

/-- The law joining the two programs' row formulas, for a row of reals:
    (max + log Σ) − x_k = −((x_k − max) − log Σ). -/
theorem nll_eq_neg_logp (x : Fin 32000 → EReal) (hx : ∀ j, ∃ r : ℝ, x j = (r : EReal)) (k : Fin 32000) :
    nll x k = -((x k - rowMax x) - Ideal.log (rowSumExp x)) := by
  obtain ⟨M, hM⟩ := rowMax_real x hx
  obtain ⟨S, hS, hSe⟩ := rowSumExp_real x hx
  obtain ⟨r, hr⟩ := hx k
  -- with max = M, Σ = S > 0 and x_k = r all real, both sides are the real M + log S − r
  rw [nll, hM, hSe, hr, Ideal.log_coe, if_neg (not_le.2 hS)]
  rw [← EReal.coe_add, ← EReal.coe_sub, ← EReal.coe_sub, ← EReal.coe_sub, ← EReal.coe_neg]
  have h : M + Real.log S - r = -((r - M) - Real.log S) := by ring
  rw [h]

/-- A row sum masked to one column is that column's entry. -/
theorem sum_ite_col (x : Fin 32000 → EReal) (k : Fin 32000) :
    (∑ j : Fin 32000, if j = k then x j else 0) = x k := by
  rw [Finset.sum_ite_eq']
  simp

/-- Row r = (c·64 + i)·32 + q of the 4096 rows corresponds to the triple (c, i, q) = (r / 2048, r / 32 mod 64, r mod 32). -/
private def rowEquiv : Fin 2 × Fin 64 × Fin 32 ≃ Fin 4096 where
  toFun p := ⟨(p.1.val * 64 + p.2.1.val) * 32 + p.2.2.val, by
    have := p.1.isLt; have := p.2.1.isLt; have := p.2.2.isLt; omega⟩
  invFun r := (⟨r.val / 2048, by have := r.isLt; omega⟩,
    ⟨r.val / 32 % 64, Nat.mod_lt _ (by norm_num)⟩, ⟨r.val % 32, Nat.mod_lt _ (by norm_num)⟩)
  left_inv p := by
    obtain ⟨c, i, q⟩ := p
    have := c.isLt; have := i.isLt; have := q.isLt
    refine Prod.ext (Fin.ext ?_) (Prod.ext (Fin.ext ?_) (Fin.ext ?_)) <;> simp only [] <;> omega
  right_inv r := by
    have := r.isLt
    refine Fin.ext ?_
    simp only []
    omega

/-- The 4096 rows regrouped as 2 halves × 64 tiles × 32 rows. -/
theorem sum_rows_split {M : Type*} [AddCommMonoid M] (f : Fin 4096 → M) :
    ∑ r : Fin 4096, f r
      = ∑ c : Fin 2, ∑ i : Fin 64, ∑ q : Fin 32,
          f ⟨(c.val * 64 + i.val) * 32 + q.val, by have := c.isLt; have := i.isLt; have := q.isLt; omega⟩ := by
  rw [← Equiv.sum_comp rowEquiv f, Fintype.sum_prod_type]
  refine Finset.sum_congr rfl fun c _ => ?_
  rw [Fintype.sum_prod_type]
  rfl

end Cert.RowMath

end
-- ==== Proof.RefValue.lean ====
/-
  The reference's language-model loss and its result, read as the shared specification.

  Row r of the reshaped logits is row (r / 1024, r % 1024) of the [4, 1024, 32000] input, and the labels likewise.
  Under the label precondition (every label is the ignore word −100 or is below 32000) the word the gather reads
  with — the label itself, or 0 on an ignored row — lies in [0, 32000): it is not negative as a signed word, the
  in-bounds mask is 1 on every row, and the gather reads the row's log-probability at that column. The negated
  log-probability of a row of reals is the row's negative log-likelihood; the select on the validity bit drops the
  ignored rows; the two float sums start from the zero word.
-/
import proofs.«426438_j56418690400290_3_alg».proof.Proof.RefRead
import proofs.«426438_j56418690400290_3_alg».proof.Proof.Spec
import proofs.«426438_j56418690400290_3_alg».proof.Proof.RowMath
import Idealize.ShloMosaic.Lib.ValueIdx
import Idealize.ShloMosaic.Lib.ValueIdxRank1
import Idealize.ShloMosaic.Lib.Pipeline.Value
import Idealize.ShloMosaic.PureOps.Ideal.Laws
import Idealize.ShloMosaic.Lib.StableHlo.Predicate

noncomputable section

namespace Cert.ReferenceIdeal.RefValue

open Cert.ReferenceIdeal Cert.ReferenceIdeal.Gen Cert.ReferenceIdeal.Read Idealize.ShloMosaic Idealize.ShloMosaic.ValueIdx
open Idealize.ShloMosaic.StableHlo.Predicate Cert.Spec
open scoped BigOperators

/-! ## The label words -/

/-- The word the gather reads with: the label, with the ignore word replaced by 0. -/
def safeW (l : BitVec 32) : BitVec 32 := if l = ign then 0#32 else l

theorem cmpi_ne_of_eq {l : BitVec 32} (h : l = ign) : IntOp.cmpi .ne l 4294967196#32 = 0#1 := by
  subst h; decide

theorem cmpi_ne_of_ne {l : BitVec 32} (h : l ≠ ign) : IntOp.cmpi .ne l 4294967196#32 = 1#1 := by
  show BitVec.ofBool (l != 4294967196#32) = 1#1
  rw [show (l != 4294967196#32) = true from bne_iff_ne.mpr h]; rfl

theorem select_safe (l : BitVec 32) : Scalar.select (IntOp.cmpi .ne l 4294967196#32) l 0#32 = safeW l := by
  unfold safeW
  by_cases h : l = ign
  · rw [cmpi_ne_of_eq h, select_zero, if_pos h]
  · rw [cmpi_ne_of_ne h, select_one, if_neg h]

theorem safeW_lt {l : BitVec 32} (h : l = ign ∨ l.toNat < 32000) : (safeW l).toNat < 32000 := by
  unfold safeW
  by_cases e : l = ign
  · rw [if_pos e]; decide
  · rw [if_neg e]; exact h.resolve_left e

theorem safeW_of_ne {l : BitVec 32} (h : l ≠ ign) : safeW l = l := if_neg h

/-- A word in [0, 32000) is not negative as a signed word. -/
theorem slt_zero {s : BitVec 32} (hs : s.toNat < 32000) : IntOp.cmpi .slt s 0#32 = 0#1 :=
  eq_zero_of_ne_one fun h => by
    have := (slt_iff_toNat (a := s) (b := 0#32) (by omega) (by decide)).mp h
    simp at this

theorem sge_zero {s : BitVec 32} (hs : s.toNat < 32000) : IntOp.cmpi .sge s 0#32 = 1#1 :=
  (sge_iff_toNat (a := s) (b := 0#32) (by omega) (by decide)).mpr (by simp)

theorem sle_last {s : BitVec 32} (hs : s.toNat < 32000) : IntOp.cmpi .sle s 31999#32 = 1#1 :=
  (sle_iff_toNat (a := s) (b := 31999#32) (by omega) (by decide)).mpr (by
    show s.toNat ≤ (31999#32 : BitVec 32).toNat
    rw [show (31999#32 : BitVec 32).toNat = 31999 from rfl]; omega)

/-- Read signed and clamped into [0, 31999], such a word is its own value. -/
theorem clamp_eq {s : BitVec 32} (hs : s.toNat < 32000) : min s.toInt.toNat 31999 = s.toNat := by
  rw [toInt_eq_toNat_of_lt (by omega), Int.toNat_natCast]; omega

/-- The validity bit read as a float is 1 on a counted row and 0 on an ignored one. -/
theorem uitofp_valid (l : BitVec 32) :
    FloatOps.uitofp (F := Ideal) .f32 (IntOp.cmpi .ne l 4294967196#32) = validF l := by
  unfold validF
  by_cases h : l = ign
  · rw [cmpi_ne_of_eq h, if_pos h]; show (((0#1 : BitVec 1).toNat : ℝ) : EReal) = 0; simp
  · rw [cmpi_ne_of_ne h, if_neg h]; show (((1#1 : BitVec 1).toNat : ℝ) : EReal) = 1; simp

/-- The f32 word of −∞ read at the extended reals. -/
theorem ofBits_neg_inf : Ideal.ofBits .f32 0xFF800000#32 = ⊥ := by simp [Ideal.ofBits, Ideal.ieee]

/-! ## The three operations that are not read element by element -/

/-- The gather's dimension numbers. -/
abbrev gd : GatherDims S4096x32000 S4096x1x1 S4096x1 := gather_S4096x32000_S4096x1x1_S4096x1_n_1_0_0_1_2_11

/-- On the batching axis the operand index is the row. -/
theorem gather_axis0 (idx : IVec S4096x1x1 32) (r : Fin 4096) :
    (gd.operandIdx (ix2 r (0 : Fin 1)) idx (0 : Fin 2)).val = r.val := by
  show gd.start _ idx 0 + gd.batchCoord _ 0 + gd.offCoord _ 0 = _
  rw [GatherDims.start_batching _ _ _ _ (List.mem_singleton.mpr rfl),
    GatherDims.offCoord_eq_zero _ _ _ (fun h => ((GatherDims.mem_sKept _ _).mp h).2 (List.mem_singleton.mpr rfl)),
    Nat.zero_add, Nat.add_zero]
  rfl

/-- On the collapsed axis the operand index is the start index, read signed and clamped into [0, 31999]. -/
theorem gather_axis1 (idx : IVec S4096x1x1 32) (r : Fin 4096) :
    (gd.operandIdx (ix2 r (0 : Fin 1)) idx (1 : Fin 2)).val
      = min (idx (ix3 r (0 : Fin 1) (0 : Fin 1))).toInt.toNat 31999 := by
  show gd.start _ idx 1 + gd.batchCoord _ 1 + gd.offCoord _ 1 = _
  rw [GatherDims.batchCoord_eq_zero _ _ _ (by show ¬ (1 : Fin 2) ∈ [(0 : Fin 2)]; decide),
    GatherDims.offCoord_eq_zero _ _ _ (fun h => ((GatherDims.mem_sKept _ _).mp h).1 (List.mem_singleton.mpr rfl))]
  simp only [Nat.add_zero]
  unfold GatherDims.start
  rw [dif_pos (show (1 : Fin 2) ∈ gd.startIndexMap from List.mem_singleton.mpr rfl)]
  have hsi : gd.siIdx (ix2 r (0 : Fin 1)) ⟨List.idxOf (1 : Fin 2) gd.startIndexMap,
      List.idxOf_lt_length_iff.2 (List.mem_singleton.mpr rfl)⟩ = ix3 r (0 : Fin 1) (0 : Fin 1) := by
    funext b; refine Fin.ext ?_
    match b with
    | ⟨0, _⟩ => rfl
    | ⟨1, _⟩ => rfl
    | ⟨2, _⟩ => rfl
  rw [hsi]
  rfl

/-- The gather along axis 1, batched over the rows, read at row r: the operand at (r, the row's start index read
    signed and clamped). -/
theorem gather_row {α : Type} (x : S4096x32000.Idx → α) (idx : IVec S4096x1x1 32) (r : Fin 4096) :
    Host.gather gd x idx (ix2 r (0 : Fin 1))
      = x (ix2 r ⟨min (idx (ix3 r (0 : Fin 1) (0 : Fin 1))).toInt.toNat 31999, by omega⟩) := by
  unfold Host.gather
  congr 1
  funext a
  match a with
  | ⟨0, _⟩ => exact Fin.ext (gather_axis0 idx r)
  | ⟨1, _⟩ => exact Fin.ext (gather_axis1 idx r)

theorem hred : S4096x32000.Reduces [1] S4096 := by decide

theorem lift_eq (r : Fin 4096) (k : Fin 32000) : hred.lift (ix1 r) k = ix2 r k := by
  funext a
  match a with
  | ⟨0, _⟩ => exact Fin.ext rfl
  | ⟨1, _⟩ => exact Fin.ext rfl

/-- The maximum over axis 1 at row r: the fold of max over the row's columns. -/
theorem rowmax_eq (x : S4096x32000.Idx → EReal) (init : S_.Idx → EReal) (r : Fin 4096) :
    Host.reduce (FloatOps.maximumf (F := Ideal) (φ := .f32)) x init reducesTo_S4096x32000_S4096_d1 h_S_ (ix1 r)
      = (Finset.univ : Finset (Fin 32000)).fold max (init (Shape.Idx.first h_S_)) (fun k => x (ix2 r k)) := by
  refine (Host.reduce_eq_fold_single (FloatOps.maximumf (F := Ideal) (φ := .f32)) x init
    reducesTo_S4096x32000_S4096_d1 hred h_S_ (ix1 r)).trans ?_
  exact Finset.fold_congr (fun k _ => congrArg x (lift_eq r k))

theorem hred2 : S4096x1x1.Reduces [2] S4096x1 := by decide

theorem lift2_eq (r : Fin 4096) (k : Fin 1) : hred2.lift (ix2 r (0 : Fin 1)) k = ix3 r (0 : Fin 1) (0 : Fin 1) := by
  funext a
  match a with
  | ⟨0, _⟩ => exact Fin.ext rfl
  | ⟨1, _⟩ => exact Fin.ext rfl
  | ⟨2, _⟩ => exact Fin.ext (by have := k.isLt; show k.val = 0; omega)

theorem fold_fin1 {α : Type} (op : α → α → α) [Std.Commutative op] [Std.Associative op] (b : α) (f : Fin 1 → α) :
    (Finset.univ : Finset (Fin 1)).fold op b f = op (f 0) b := by
  rw [Finset.univ_unique, Finset.fold_singleton]; rfl

/-- The conjunction over the unit axis 2 at row r: the one mask bit and the initial bit. -/
theorem andi_row (m : IVec S4096x1x1 1) (init : S_.Idx → BitVec 1) (r : Fin 4096) :
    Host.reduce IntOp.andi m init reducesTo_S4096x1x1_S4096x1_d2 h_S_ (ix2 r (0 : Fin 1))
      = IntOp.andi (m (ix3 r (0 : Fin 1) (0 : Fin 1))) (init (Shape.Idx.first h_S_)) := by
  refine (Host.reduce_eq_fold_single IntOp.andi m init reducesTo_S4096x1x1_S4096x1_d2 hred2 h_S_ (ix2 r (0 : Fin 1))).trans ?_
  refine (fold_fin1 IntOp.andi (init (Shape.Idx.first h_S_)) (fun k => m (hred2.lift (ix2 r (0 : Fin 1)) k))).trans ?_
  exact congrArg (fun i => IntOp.andi (m i) (init (Shape.Idx.first h_S_))) (lift2_eq r 0)

/-! ## Where each layout operation reads, at a row -/

theorem idx_v0 (r : Fin 4096) (k : Fin 32000) :
    idx_main_v0 (ix2 r k)
      = ix3 (⟨r.val / 1024, by have := r.isLt; omega⟩ : Fin 4) (⟨r.val % 1024, Nat.mod_lt _ (by norm_num)⟩ : Fin 1024) k := by
  funext a
  match a with
  | ⟨0, _⟩ => exact Fin.ext (by have := r.isLt; have := k.isLt; show (r.val * 32000 + k.val) / 32768000 = r.val / 1024; omega)
  | ⟨1, _⟩ => exact Fin.ext (by have := r.isLt; have := k.isLt; show (r.val * 32000 + k.val) / 32000 % 1024 = r.val % 1024; omega)
  | ⟨2, _⟩ => exact Fin.ext (by have := r.isLt; have := k.isLt; show (r.val * 32000 + k.val) % 32000 = k.val; omega)

theorem idx_v1 (r : Fin 4096) :
    idx_main_v1 (ix1 r)
      = ix2 (⟨r.val / 1024, by have := r.isLt; omega⟩ : Fin 4) (⟨r.val % 1024, Nat.mod_lt _ (by norm_num)⟩ : Fin 1024) := by
  funext a
  match a with
  | ⟨0, _⟩ => exact Fin.ext rfl
  | ⟨1, _⟩ => exact Fin.ext rfl

/-- A [4096] array broadcast to a [4096, 1] column reads row r. -/
theorem idx_col (r : Fin 4096) : idx_main_call1_v3 (ix2 r (0 : Fin 1)) = ix1 r := by
  funext a
  match a with
  | ⟨0, _⟩ => exact Fin.ext rfl

/-- A [4096, 1] column broadcast along the row reads its one column. -/
theorem idx_row (r : Fin 4096) (k : Fin 32000) : idx_main_call1_v4 (ix2 r k) = ix2 r (0 : Fin 1) := by
  funext a
  match a with
  | ⟨0, _⟩ => exact Fin.ext rfl
  | ⟨1, _⟩ => exact Fin.ext rfl

theorem idx_col_v8 (r : Fin 4096) : idx_main_call1_v8 (ix2 r (0 : Fin 1)) = ix1 r := idx_col r

theorem idx_col_v6 (r : Fin 4096) : idx_main_v6 (ix2 r (0 : Fin 1)) = ix1 r := idx_col r

theorem idx_row_v10 (r : Fin 4096) (k : Fin 32000) : idx_main_call1_v10 (ix2 r k) = ix2 r (0 : Fin 1) := idx_row r k

theorem idx_call1_v7 (r : Fin 4096) (k : Fin 32000) : idx_main_call1_v7 (ix1 r) k = ix2 r k := by
  funext a
  match a with
  | ⟨0, _⟩ => exact Fin.ext rfl
  | ⟨1, _⟩ => exact Fin.ext rfl

theorem idx_call2_v5 (r : Fin 4096) : idx_main_call2_v5 (ix3 r (0 : Fin 1) (0 : Fin 1)) = ix2 r (0 : Fin 1) := by
  funext a
  match a with
  | ⟨0, _⟩ => exact Fin.ext (by show ((r.val * 1 + 0) * 1 + 0) / 1 = r.val; omega)
  | ⟨1, _⟩ => exact Fin.ext rfl

theorem idx_v8 (r : Fin 4096) : idx_main_v8 (ix1 r) = ix2 r (0 : Fin 1) := by
  funext a
  match a with
  | ⟨0, _⟩ => exact Fin.ext (by show r.val / 1 = r.val; omega)
  | ⟨1, _⟩ => exact Fin.ext rfl

section Rows

variable (x0 : (⟨S4x1024x32000, .f32⟩ : BufTy).Contents (Elt Ideal)) (x1 : (⟨S4x1024, .i32⟩ : BufTy).Contents (Elt Ideal))
variable (r : Fin 4096)

/-! ## The log-probabilities of row r -/

theorem v0_at (k : Fin 32000) : val_main_v0 (F := Ideal) x0 (ix2 r k) = rows2d x0 r k := by
  rw [val_main_v0_apply, idx_v0]; rfl

theorem call1_v0_at : val_main_call1_v0 (F := Ideal) x0 (ix1 r) = rowMax (rows2d x0 r) := by
  unfold val_main_call1_v0
  refine (rowmax_eq _ _ r).trans ?_
  have hb : val_main_call1_cst (F := Ideal) (Shape.Idx.first h_S_) = ⊥ := ofBits_neg_inf
  rw [hb]
  exact Finset.fold_congr (fun k _ => v0_at x0 r k)

theorem call1_v2_at : val_main_call1_v2 (F := Ideal) x0 (ix1 r) = rowMax (rows2d x0 r) := by
  have hb : val_main_call1_v1 (F := Ideal) (ix1 r) = ⊥ := by
    rw [val_main_call1_v1_apply]; exact ofBits_neg_inf
  rw [val_main_call1_v2_apply, call1_v0_at, hb, Ideal.maximumf_def]
  exact max_eq_right bot_le

theorem call1_v4_at (k : Fin 32000) : val_main_call1_v4 (F := Ideal) x0 (ix2 r k) = rowMax (rows2d x0 r) := by
  rw [val_main_call1_v4_apply, idx_row, val_main_call1_v3_apply, idx_col, call1_v2_at]

theorem call1_v5_at (k : Fin 32000) :
    val_main_call1_v5 (F := Ideal) x0 (ix2 r k) = rows2d x0 r k - rowMax (rows2d x0 r) := by
  rw [val_main_call1_v5_apply, v0_at, call1_v4_at, Ideal.subf_def]

theorem call1_v6_at (k : Fin 32000) :
    val_main_call1_v6 (F := Ideal) x0 (ix2 r k) = Ideal.exp (rows2d x0 r k - rowMax (rows2d x0 r)) := by
  rw [val_main_call1_v6_apply, call1_v5_at, Ideal.hostUnary_exp_def]

theorem call1_v7_at : val_main_call1_v7 (F := Ideal) x0 (ix1 r) = rowSumExp (rows2d x0 r) := by
  rw [val_main_call1_v7_apply, val_main_call1_cst_1_apply, Ideal.ofBits_def, Ideal.ofBits_zero_f32, zero_add]
  unfold rowSumExp
  exact Finset.sum_congr rfl (fun k _ => by rw [idx_call1_v7, call1_v6_at])

theorem call1_v10_at (k : Fin 32000) :
    val_main_call1_v10 (F := Ideal) x0 (ix2 r k) = Ideal.log (rowSumExp (rows2d x0 r)) := by
  rw [val_main_call1_v10_apply, idx_row_v10, val_main_call1_v9_apply, val_main_call1_v8_apply, idx_col_v8, call1_v7_at,
    Ideal.hostUnary_log_def]

/-- The log-softmax of row r at column k. -/
theorem v5_at (k : Fin 32000) :
    val_main_v5 (F := Ideal) x0 (ix2 r k)
      = (rows2d x0 r k - rowMax (rows2d x0 r)) - Ideal.log (rowSumExp (rows2d x0 r)) := by
  rw [val_main_v5_apply, call1_v5_at, call1_v10_at, Ideal.subf_def]

/-! ## The label of row r, and the word the gather reads with -/

theorem v1_at : val_main_v1 (F := Ideal) x1 (ix1 r) = labs1d x1 r := by
  rw [val_main_v1_apply, idx_v1]; rfl

theorem v3_at : val_main_v3 (F := Ideal) x1 (ix1 r) = IntOp.cmpi .ne (labs1d x1 r) 4294967196#32 := by
  rw [val_main_v3_apply, v1_at, val_main_v2_apply, val_main_c_apply]

theorem v4_at : val_main_v4 (F := Ideal) x1 (ix1 r) = safeW (labs1d x1 r) := by
  rw [val_main_v4_apply, v3_at, v1_at, val_main_call0_v1_apply, val_main_call0_v0_apply, val_main_c_0_apply, select_safe]

theorem v6_at : val_main_v6 (F := Ideal) x1 (ix2 r (0 : Fin 1)) = safeW (labs1d x1 r) := by
  rw [val_main_v6_apply, idx_col_v6, v4_at]

variable (hl : labs1d x1 r = ign ∨ (labs1d x1 r).toNat < 32000)
include hl

theorem call2_v4_at : val_main_call2_v4 (F := Ideal) x1 (ix2 r (0 : Fin 1)) = safeW (labs1d x1 r) := by
  rw [val_main_call2_v4_apply, val_main_call2_v1_apply, v6_at, val_main_call2_v0_apply, val_main_call2_c_apply,
    slt_zero (safeW_lt hl), select_zero]

theorem call2_v5_at : val_main_call2_v5 (F := Ideal) x1 (ix3 r (0 : Fin 1) (0 : Fin 1)) = safeW (labs1d x1 r) := by
  rw [val_main_call2_v5_apply, idx_call2_v5, call2_v4_at x1 r hl]

/-- The in-bounds mask is 1 on every row. -/
theorem call2_v11_at : val_main_call2_v11 (F := Ideal) x1 (ix3 r (0 : Fin 1) (0 : Fin 1)) = 1#1 := by
  rw [val_main_call2_v11_apply, val_main_call2_v7_apply, val_main_call2_v10_apply, call2_v5_at x1 r hl,
    val_main_call2_v6_apply, val_main_call2_c_2_apply, val_main_call2_v9_apply, val_main_call2_v8_apply,
    val_main_call2_c_1_apply, sge_zero (safeW_lt hl), sle_last (safeW_lt hl)]
  rfl

theorem call2_v12_at : val_main_call2_v12 (F := Ideal) x1 (ix2 r (0 : Fin 1)) = 1#1 := by
  unfold val_main_call2_v12
  refine (andi_row _ _ r).trans ?_
  rw [call2_v11_at x1 r hl, val_main_call2_c_3_apply]
  rfl

/-- The gathered value of row r: the row's log-probability at the column the word names. -/
theorem call2_v13_at (c : Fin 32000) (hc : c.val = (safeW (labs1d x1 r)).toNat) :
    val_main_call2_v13 (F := Ideal) x0 x1 (ix2 r (0 : Fin 1)) = val_main_v5 (F := Ideal) x0 (ix2 r c) := by
  unfold val_main_call2_v13
  refine (gather_row _ _ r).trans ?_
  refine congrArg (fun k => val_main_v5 (F := Ideal) x0 (ix2 r k)) (Fin.ext ?_)
  show min (val_main_call2_v5 (F := Ideal) x1 (ix3 r (0 : Fin 1) (0 : Fin 1))).toInt.toNat 31999 = c.val
  rw [call2_v5_at x1 r hl, clamp_eq (safeW_lt hl), hc]

theorem v9_at (c : Fin 32000) (hc : c.val = (safeW (labs1d x1 r)).toNat) :
    val_main_v9 (F := Ideal) x0 x1 (ix1 r) = -(val_main_v5 (F := Ideal) x0 (ix2 r c)) := by
  rw [val_main_v9_apply, val_main_v8_apply, idx_v8, val_main_v7_apply, call2_v12_at x1 r hl, select_one,
    call2_v13_at x0 x1 r hl c hc, Ideal.hostNegf_def, Ideal.negf_def]

/-- Row r's term of the loss sum. -/
theorem v13_at (hfin : ∀ k, ∃ t : ℝ, rows2d x0 r k = (t : EReal)) :
    val_main_v13 (F := Ideal) x0 x1 (ix1 r) = rowLoss (rows2d x0 r) (labs1d x1 r) := by
  rw [val_main_v13_apply, v3_at]
  unfold rowLoss
  by_cases h : labs1d x1 r = ign
  · rw [cmpi_ne_of_eq h, select_zero, if_pos h, val_main_call3_v1_apply, val_main_call3_v0_apply, val_main_cst_2_apply,
      Ideal.ofBits_def, Ideal.ofBits_zero_f32]
  · have hc : (colFin (labs1d x1 r)).val = (safeW (labs1d x1 r)).toNat := by
      show (labs1d x1 r).toNat % 32000 = _
      rw [safeW_of_ne h, Nat.mod_eq_of_lt (hl.resolve_left h)]
    rw [cmpi_ne_of_ne h, select_one, if_neg h, v9_at x0 x1 r hl _ hc, v5_at, RowMath.nll_eq_neg_logp _ hfin]

omit hl

/-- Row r's term of the count. -/
theorem v10_at : val_main_v10 (F := Ideal) x1 (ix1 r) = validF (labs1d x1 r) := by
  rw [val_main_v10_apply, v3_at, uitofp_valid]

end Rows

/-! ## The two sums and the quotient -/

section Sums

variable (x0 : (⟨S4x1024x32000, .f32⟩ : BufTy).Contents (Elt Ideal)) (x1 : (⟨S4x1024, .i32⟩ : BufTy).Contents (Elt Ideal))
variable (hfin : ∀ i, ∃ r : ℝ, x0 i = (r : EReal)) (hlab : ∀ i, x1 i = ign ∨ (x1 i).toNat < 32000)

/-- A sum over the indices of a [4096] array is the sum over its rows. -/
theorem sum_rows (f : S4096.Idx → EReal) : ∑ j : S4096.Idx, f j = ∑ r : Fin 4096, f (ix1 r) :=
  (Equiv.sum_comp (idxEquiv1 (n := 4096)).symm f).symm

include hfin hlab in
theorem v14_at (i : S_.Idx) :
    val_main_v14 (F := Ideal) x0 x1 i = ∑ r : Fin 4096, rowLoss (rows2d x0 r) (labs1d x1 r) := by
  rw [val_main_v14_apply, val_main_cst_3_apply, Ideal.ofBits_def, Ideal.ofBits_zero_f32, zero_add, sum_rows]
  exact Finset.sum_congr rfl (fun r _ => v13_at x0 x1 r (hlab _) (fun k => hfin _))

theorem v11_at (i : S_.Idx) : val_main_v11 (F := Ideal) x1 i = ∑ r : Fin 4096, validF (labs1d x1 r) := by
  rw [val_main_v11_apply, val_main_cst_apply, Ideal.ofBits_def, Ideal.ofBits_zero_f32, zero_add, sum_rows]
  exact Finset.sum_congr rfl (fun r _ => v10_at x1 r)

end Sums

/-- THE LANGUAGE-MODEL LOSS the reference computes is the specification's. -/
theorem lm_eq (x0 : (⟨S4x1024x32000, .f32⟩ : BufTy).Contents (Elt Ideal)) (x1 : (⟨S4x1024, .i32⟩ : BufTy).Contents (Elt Ideal))
    (hfin : ∀ i, ∃ r : ℝ, x0 i = (r : EReal)) (hlab : ∀ i, x1 i = Cert.Spec.ign ∨ (x1 i).toNat < 32000) :
    Cert.ReferenceIdeal.Read.val_main_v15 (F := Ideal) x0 x1
      = fun _ => Cert.Spec.lmLoss (Cert.Spec.rows2d x0) (Cert.Spec.labs1d x1) := by
  funext i
  rw [val_main_v15_apply, v14_at x0 x1 hfin hlab, val_main_v12_apply, v11_at, val_main_cst_1_apply, Ideal.hostDivf_def,
    Ideal.maximumf_def, Ideal.ofBits_def]
  rfl

/-- THE RESULT the reference computes: 1·(the language-model loss) + 10·(the ranking loss, left as the reference's). -/
theorem result_eq (x0 : (⟨S4x1024x32000, .f32⟩ : BufTy).Contents (Elt Ideal)) (x1 : (⟨S4x1024, .i32⟩ : BufTy).Contents (Elt Ideal))
    (x2 : (⟨S64, .f32⟩ : BufTy).Contents (Elt Ideal)) (x3 : (⟨S64, .i32⟩ : BufTy).Contents (Elt Ideal))
    (hfin : ∀ i, ∃ r : ℝ, x0 i = (r : EReal)) (hlab : ∀ i, x1 i = Cert.Spec.ign ∨ (x1 i).toNat < 32000) :
    Cert.ReferenceIdeal.Read.val_main_v44 (F := Ideal) x0 x1 x2 x3
      = fun _ => Cert.Spec.total (Cert.Spec.lmLoss (Cert.Spec.rows2d x0) (Cert.Spec.labs1d x1))
          (Cert.ReferenceIdeal.Read.val_main_v41 (F := Ideal) x2 x3 ValueIdx.ix0) := by
  funext i
  obtain rfl : i = ix0 := eq_ix0 i
  have hlm : val_main_v15 (F := Ideal) x0 x1 ix0 = lmLoss (rows2d x0) (labs1d x1) := congrFun (lm_eq x0 x1 hfin hlab) ix0
  rw [val_main_v44_apply, val_main_v42_apply, val_main_v43_apply, hlm, val_main_cst_9_apply, val_main_cst_10_apply,
    Ideal.addf_def, Ideal.mulf_def, Ideal.mulf_def, Ideal.ofBits_def, Ideal.ofBits_def]
  rfl

end Cert.ReferenceIdeal.RefValue

end
-- ==== Proof.PreFacts.lean ====
import proofs.«426438_j56418690400290_3_alg».proof.Pre_finite_inputs
import proofs.«426438_j56418690400290_3_alg».proof.Proof.Spec
import Idealize.ShloMosaic.Lib.ReduceAll
import Idealize.ShloMosaic.Lib.StableHlo.Predicate
import Idealize.ShloMosaic.Lib.ValueIdx

/-!
  The printed precondition, read back.

  The precondition is the conjunction of three "all" statements: every logit has |x| < +∞, every ranking logit
  has |x| < +∞, and every label word l satisfies  l = −100  or  (0 ≤ l and l < 32000)  as signed 32-bit integers.
  From it: every logit is a real number, and every label is the ignore word or names a column below 32000.
-/

namespace Cert.PreFacts

open Idealize.ShloMosaic Idealize.ShloMosaic.ValueIdx

/-- The result shape of a reduction over all axes has exactly one index. -/
instance : Subsingleton Cert.Pre_finite_inputs.S_.Idx := ⟨fun a b => funext fun d => d.elim0⟩

/-- An extended real whose absolute value max(x, −x) is below +∞ (the f32 word 0x7F800000) is a real number:
    x = +∞ fails x < +∞, and x = −∞ fails −x < +∞. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at hx
  unfold Ideal.cmp at hx
  have hlt : max x (-x) < ⊤ := by
    have := (StableHlo.Predicate.ofBool_eq_one_iff _).1 hx
    exact of_decide_eq_true this
  obtain ⟨h1, h2⟩ := max_lt_iff.1 hlt
  induction x using EReal.rec with
  | bot => exact absurd h2 (by simp)
  | coe r => exact ⟨r, rfl⟩
  | top => exact absurd h1 (lt_irrefl _)

/-- A 32-bit word that is −100, or is at least 0 and below 32000 read signed, is −100 or below 32000 read unsigned:
    a word that is nonnegative read signed has its top bit clear, so its signed and unsigned readings agree. -/
theorem label_of_words (l : BitVec 32)
    (hl : IntOp.ori (IntOp.cmpi .eq l 4294967196#32)
            (IntOp.andi (IntOp.cmpi .sge l 0#32) (IntOp.cmpi .slt l 32000#32)) = 1#1) :
    l = Cert.Spec.ign ∨ l.toNat < 32000 := by
  rcases IntOp.ori_eq_one.1 hl with he | hr
  · exact Or.inl (IntOp.cmpi_eq.1 he)
  · obtain ⟨hge, hlt⟩ := IntOp.andi_eq_one.1 hr
    have h0 : (0 : Int) ≤ l.toInt := by
      have := IntOp.cmpi_sge.1 hge
      rwa [show (0#32 : BitVec 32).toInt = 0 from by decide] at this
    have h1 : l.toInt < 32000 := by
      have := IntOp.cmpi_slt.1 hlt
      rwa [show (32000#32 : BitVec 32).toInt = 32000 from by decide] at this
    right
    have hc := BitVec.toInt_eq_toNat_cond l
    split at hc <;> omega

theorem of_pre [Cert.Pre_finite_inputs.Facts]
    (a0 : FVec Ideal Cert.Pre_finite_inputs.S4x1024x32000 .f32) (a1 : IVec Cert.Pre_finite_inputs.S4x1024 32)
    (a2 : FVec Ideal Cert.Pre_finite_inputs.S64 .f32) (a3 : IVec Cert.Pre_finite_inputs.S64 32)
    (h : Cert.Pre_finite_inputs.fn (F := Ideal) a0 a1 a2 a3 = fun _ => 1#1) :
    (∀ i, ∃ r : ℝ, a0 i = (r : EReal)) ∧ (∀ i, a1 i = Cert.Spec.ign ∨ (a1 i).toNat < 32000) := by
  have h0 := congrFun h ValueIdx.ix0
  dsimp only [Cert.Pre_finite_inputs.fn, Cert.Pre_finite_inputs.fn_part1] at h0
  -- the three conjuncts: (logits ∧ ranking logits) ∧ labels
  obtain ⟨h01, hL⟩ := IntOp.andi_eq_one.1 h0
  obtain ⟨hA, _⟩ := IntOp.andi_eq_one.1 h01
  refine ⟨fun i => ?_, fun i => ?_⟩
  · exact real_of_abs_lt_inf (a0 i) (Host.reduce_andi_all _ _ _ _ _ hA i)
  · exact label_of_words (a1 i) (Host.reduce_andi_all _ _ _ _ _ hL i)

end Cert.PreFacts
-- ==== Proof.KIPieces.lean ====
/-
  What each case of the kernel body leaves in the two accumulators' buffers, as values: at a later step of a half the
  loss accumulator ends at (what it held) + (the tile's loss sum) and the count accumulator at (what it held) + (the
  tile's count), each through the two one-element shape casts of the body; at the first step of a half the same over the
  zero the body has just stored there.
-/
import proofs.«426438_j56418690400290_3_alg».proof.Proof.KIFrame
import Idealize.ShloMosaic.Lib.Pipeline.Value

set_option maxRecDepth 16384

noncomputable section

namespace Cert.KernelIdeal.Val

open Cert.KernelIdeal Cert.KernelIdeal.Gen Cert.KernelIdeal.Fr
open Idealize.ShloMosaic Idealize.ShloMosaic.TcCoe Idealize.ShloMosaic.Tactic Idealize.SL.Sem
open Idealize.ShloMosaic.Pipeline (Dat)

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A later step: the loss accumulator ends at what it held plus the tile's loss sum. -/
theorem out_B_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) :
    out0_B_2 c i arg2 harg2 arg3 harg3 arg4 harg4 arg5 harg5 hc0 x0 x1 xo2 xo3 = k0_pay1 (k0_pay8 x0 x1) xo2 := by
  unfold out0_B_2
  rw [View.read_writes_eq_canon _ _ _ (cover0_B_2 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S32x32000) hz2, View.ld_unit_zero (S := S32x1) hz2, View.ld_unit_zero (S := S1x1x1) hz3]

/-- A later step: the count accumulator ends at what it held plus the tile's count. -/
theorem out_B_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : ¬cond0_0 i)
    (x0 : Vec F S32x32000 .f32) (x1 : Vec F S32x1 .i32) (xo2 : Vec F S1x1x1 .f32) (xo3 : Vec F S1x1x1 .f32) :
    out0_B_3 c i arg2 harg2 arg3 harg3 arg4 harg4 arg5 harg5 hc0 x0 x1 xo2 xo3 = k0_pay2 (k0_pay9 x1) xo3 := by
  unfold out0_B_3
  rw [View.read_writes_eq_canon _ _ _ (cover0_B_3 c i arg2 harg2 arg3 harg3 arg4 harg4 arg5 harg5 hc0 x0 x1 xo2 xo3)]
  unfold kernelRun0_B
  dsimp only
  sl_unfold_words
  rw [View.canon_unit_zero hz3]
  simp only [View.readAt_eq_ld, harg2.read_unread, harg3.read_unread, harg4.read_unread, harg5.read_unread, View.ld_unit_zero (S := S32x32000) hz2, View.ld_unit_zero (S := S32x1) hz2, View.ld_unit_zero (S := S1x1x1) hz3]

/-- The first step of a half: the loss accumulator, stored zero and read back, ends at zero plus the tile's loss sum. -/
theorem out_A_2 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) :
    out0_A_2 c i arg2 harg2 arg3 harg3 arg4 harg4 arg5 harg5 hc0 x0 x1 = k0_pay1 (k0_pay8 x0 x1) k0_pay3 := by
  unfold out0_A_2
  rw [View.read_writes_eq_canon _ _ _ (cover0_A_2 c i arg2 harg2 arg3 harg3 arg4 harg4 arg5 harg5 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, View.ld_unit_zero (S := S32x32000) hz2, View.ld_unit_zero (S := S32x1) hz2, View.ld_unit_zero (S := S1x1x1) hz3]

/-- The first step of a half: the count accumulator ends at zero plus the tile's count. -/
theorem out_A_3 (c : Dev nD) (i : grid0.Coords) (arg2 : Memref sig .tc .vmem S32x32000 .f32) (harg2 : arg2.IsWhole) (arg3 : Memref sig .tc .vmem S32x1 .i32) (harg3 : arg3.IsWhole) (arg4 : Memref sig .tc .vmem S1x1x1 .f32) (harg4 : arg4.IsWhole) (arg5 : Memref sig .tc .vmem S1x1x1 .f32) (harg5 : arg5.IsWhole) (hc0 : cond0_0 i)
    (x0 : Vec F S32x32000 .f32) (x1 : Vec F S32x1 .i32) :
    out0_A_3 c i arg2 harg2 arg3 harg3 arg4 harg4 arg5 harg5 hc0 x0 x1 = k0_pay2 (k0_pay9 x1) k0_pay4 := by
  unfold out0_A_3
  rw [View.read_writes_eq_canon _ _ _ (cover0_A_3 c i arg2 harg2 arg3 harg3 arg4 harg4 arg5 harg5 hc0 x0 x1)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread, harg5.read_unread, View.ld_unit_zero (S := S32x32000) hz2, View.ld_unit_zero (S := S32x1) hz2, View.ld_unit_zero (S := S1x1x1) hz3]

end Cert.KernelIdeal.Val

end
-- ==== Proof.KPay.lean ====
/-
  The kernel body's arithmetic read at the extended reals.

  One grid step takes a tile of 32 rows of logits x : [32, 32000] and their label words l : [32, 1]. For each row it forms
  m = max_j x_j (the fold of max from −∞), s = Σ_j exp (x_j − m), the gathered logit g = Σ_j [j = c] · x_j at the column
  c = clip (l if l ≠ −100 else 0, 0, 31999), and the product ((m + log s) − g) · [l ≠ −100]; it sums the products over the
  32 rows, and counts the rows with l ≠ −100. For a label that is −100 the factor is 0 and the product is 0; for a label
  below 32000 the factor is 1, the clip leaves the label, and the mask picks the label's column, so the product is the
  row's negative log-likelihood at its label. The two accumulators are "value read + tile value", started from 0.
-/
import proofs.«426438_j56418690400290_3_alg».proof.Proof.Gen.KernelIdeal.Skeleton
import proofs.«426438_j56418690400290_3_alg».proof.Proof.Spec
import proofs.«426438_j56418690400290_3_alg».proof.Proof.RowMath
import Idealize.ShloMosaic.PureOps.Ideal.Laws
import Idealize.ShloMosaic.Lib.ValueIdx
import Idealize.ShloMosaic.Lib.Pipeline.Value
import Idealize.ShloMosaic.Lib.ValueLayout

noncomputable section

namespace Cert.KernelIdeal.KPay

open Idealize.ShloMosaic Cert.KernelIdeal Cert.KernelIdeal.Gen Idealize.ShloMosaic.ValueIdx
open scoped BigOperators

/-! ## Label words -/

/-- A word below 32000 is not the word of −100. -/
theorem ne_ign_of_lt (l : BitVec 32) (h : l.toNat < 32000) : l ≠ 4294967196#32 := by
  intro e
  rw [e] at h
  exact absurd h (by decide)

/-- "not equal" of two different words is the bit 1 … -/
theorem cmpi_ne_of_ne {l m : BitVec 32} (h : l ≠ m) : IntOp.cmpi .ne l m = 1#1 := by
  show BitVec.ofBool (l != m) = 1#1
  rw [bne_iff_ne.mpr h]; rfl

/-- … and of a word with itself the bit 0. -/
theorem cmpi_ne_self (l : BitVec 32) : IntOp.cmpi .ne l l = 0#1 := by
  simp [IntOp.cmpi]

/-- A select on "equal" of two words is the `if` on their equality. -/
theorem select_cmpi_eq {α : Type} (a b : BitVec 32) (x y : α) :
    Scalar.select (IntOp.cmpi .eq a b) x y = if a = b then x else y := by
  show (if BitVec.ofBool (a == b) = 1#1 then x else y) = _
  by_cases h : a = b
  · rw [if_pos h, beq_iff_eq.mpr h]; rfl
  · rw [if_neg h, beq_eq_false_iff_ne.mpr h]; rfl

/-- A word below 32000 read as a signed integer is its natural number. -/
theorem toInt_of_lt (l : BitVec 32) (h : l.toNat < 32000) : l.toInt = (l.toNat : Int) :=
  BitVec.toInt_eq_toNat_of_lt (by omega)

/-- Clipping a label in range into [0, 31999], as signed words, leaves it. -/
theorem clip_label (l : BitVec 32) (h : l.toNat < 32000) :
    IntOp.minsi 31999#32 (IntOp.maxsi 0#32 l) = l := by
  have hl := toInt_of_lt l h
  have h1 : IntOp.maxsi 0#32 l = l := by
    unfold IntOp.maxsi
    rw [if_neg]
    rw [BitVec.slt_eq_decide, decide_eq_true_eq, hl]
    simp
  rw [h1]
  unfold IntOp.minsi
  rw [if_neg]
  rw [BitVec.slt_eq_decide, decide_eq_true_eq, hl]
  have : (31999#32 : BitVec 32).toInt = 31999 := by decide
  rw [this]
  omega

/-- The column the body gathers at, for a label in range: the label itself. -/
theorem safe_label (l : BitVec 32) (h : l.toNat < 32000) :
    IntOp.minsi 31999#32 (IntOp.maxsi 0#32 (Scalar.select (IntOp.cmpi .ne l 4294967196#32) l 0#32)) = l := by
  rw [cmpi_ne_of_ne (ne_ign_of_lt l h), select_one, clip_label l h]

/-- The float the body multiplies a row by: 1 for a counted row, 0 for an ignored one. -/
theorem validFactor (l : BitVec 32) :
    (FloatOps.sitofp (F := Ideal) .f32 ((IntOp.cmpi .ne l 4294967196#32).setWidth 32) : EReal)
      = if l = 4294967196#32 then 0 else 1 := by
  by_cases h : l = 4294967196#32
  · rw [if_pos h, h, cmpi_ne_self]
    show (((BitVec.setWidth 32 0#1).toInt : ℝ) : EReal) = 0
    have : (BitVec.setWidth 32 0#1).toInt = 0 := by decide
    rw [this]; simp
  · rw [if_neg h, cmpi_ne_of_ne h]
    show (((BitVec.setWidth 32 1#1).toInt : ℝ) : EReal) = 1
    have : (BitVec.setWidth 32 1#1).toInt = 1 := by decide
    rw [this]; simp

/-- The word of column `j` is a label in range exactly at the label's column. -/
theorem ofNat_eq_iff (l : BitVec 32) (h : l.toNat < 32000) (j : Fin 32000) :
    BitVec.ofNat 32 j.val = l ↔ j = Cert.Spec.colFin l := by
  have hj := j.isLt
  constructor
  · intro e
    apply Fin.ext
    have : (BitVec.ofNat 32 j.val).toNat = l.toNat := by rw [e]
    rw [BitVec.toNat_ofNat, Nat.mod_eq_of_lt (by omega)] at this
    show j.val = l.toNat % 32000
    rw [Nat.mod_eq_of_lt h]; exact this
  · intro e
    apply BitVec.eq_of_toNat_eq
    rw [BitVec.toNat_ofNat, Nat.mod_eq_of_lt (by omega), e]
    exact Nat.mod_eq_of_lt h

section Layout
variable {α : Type}

/-- An `[a]` array cast to `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Pointwise operations read at an index (all by unfolding) -/

section Pointwise
variable {s : Shape}

theorem exp_apply (a : FVec Ideal s .f32) (i : s.Idx) : exp a i = Ideal.exp (a i) := rfl
theorem log_apply (a : FVec Ideal s .f32) (i : s.Idx) : log a i = Ideal.log (a i) := rfl
theorem cmpi_apply (p : CmpIPredicate) (a b : IVec s 32) (i : s.Idx) : cmpi p a b i = IntOp.cmpi p (a i) (b i) := rfl
theorem maxsi_apply (a b : IVec s 32) (i : s.Idx) : maxsi a b i = IntOp.maxsi (a i) (b i) := rfl
theorem minsi_apply (a b : IVec s 32) (i : s.Idx) : minsi a b i = IntOp.minsi (a i) (b i) := rfl

end Pointwise

/-! ## The two reductions of the tile at explicit coordinates -/

/-- The index a lane reduction of a `[32, 32000]` tile inserts at row `q`, column `k`. -/
theorem lift_row (q : Fin 32) (k : Fin 32000) :
    reduces_S32x32000_S32.lift (ix1 q) k = ix2 q k := by
  funext c
  match c with
  | ⟨0, _⟩ => exact Fin.ext rfl
  | ⟨1, _⟩ => exact Fin.ext rfl

/-- The index a reduction over the rows of a `[32, 1]` column inserts at row `q`. -/
theorem lift_col (u : Fin 1) (q : Fin 32) :
    reduces_S32x1_S1.lift (ix1 u) q = ix2 q u := by
  funext c
  match c with
  | ⟨0, _⟩ => exact Fin.ext rfl
  | ⟨1, _⟩ => exact Fin.ext rfl

/-- The f32 word 0xFF800000 is −∞. -/
theorem ofBits_negInf : Ideal.ofBits .f32 0xFF800000#32 = ⊥ := by
  simp [Ideal.ofBits, Ideal.ieee]

/-- A lane sum of a `[32, 32000]` tile at row `q`: the sum over the row's columns. -/
theorem laneSum_apply (v : FVec Ideal S32x32000 .f32) (hφ : FKind.Formats .f32)
    (hacc : (0x00000000#32 : BitVec FTy.f32.bits) = FKind.add.neutral .f32 hφ) (q : Fin 32) :
    multiReduction (F := Ideal) .add [1] S32 v 0x00000000#32 reduces_S32x32000_S32 hφ hacc (ix1 q)
      = ∑ k : Fin 32000, v (ix2 q k) :=
  (Ideal.multiReduction_add_single v 0x00000000#32 reduces_S32x32000_S32 hφ hacc (ix1 q)).trans
    (Finset.sum_congr rfl fun k _ => congrArg v (lift_row q k))

/-- A lane maximum of a `[32, 32000]` tile at row `q`: the fold of `max` from −∞ over the row's columns. -/
theorem laneMax_apply (v : FVec Ideal S32x32000 .f32) (hφ : FKind.Formats .f32)
    (hacc : (0xFF800000#32 : BitVec FTy.f32.bits) = FKind.maximumf.neutral .f32 hφ) (q : Fin 32) :
    multiReduction (F := Ideal) .maximumf [1] S32 v 0xFF800000#32 reduces_S32x32000_S32 hφ hacc (ix1 q)
      = (Finset.univ : Finset (Fin 32000)).fold max ⊥ (fun k => v (ix2 q k)) := by
  refine (Ideal.multiReduction_maximumf_single v 0xFF800000#32 reduces_S32x32000_S32 hφ hacc (ix1 q)).trans ?_
  have hf : (v ∘ reduces_S32x32000_S32.lift (ix1 q)) = fun k : Fin 32000 => v (ix2 q k) :=
    funext fun k => congrArg v (lift_row q k)
  have hb : (FloatOps.ofBits (F := Ideal) .f32 0xFF800000#32) = (⊥ : EReal) := ofBits_negInf
  rw [hf, hb]
  rfl

/-- The sum over the rows of a `[32, 1]` column. -/
theorem rowsSum_apply (v : FVec Ideal S32x1 .f32) (hφ : FKind.Formats .f32)
    (hacc : (0x00000000#32 : BitVec FTy.f32.bits) = FKind.add.neutral .f32 hφ) (u : Fin 1) :
    multiReduction (F := Ideal) .add [0] S1 v 0x00000000#32 reduces_S32x1_S1 hφ hacc (ix1 u)
      = ∑ q : Fin 32, v (ix2 q u) :=
  (Ideal.multiReduction_add_single v 0x00000000#32 reduces_S32x1_S1 hφ hacc (ix1 u)).trans
    (Finset.sum_congr rfl fun k _ => congrArg v (lift_col u k))

/-- The column counter of the tile at `(q, k)` is the word of `k`. -/
theorem iota_col_apply (q : Fin 32) (k : Fin 32000) :
    iota .tc S32x32000 32 [1] iota_S32x32000_d1_w32 (ix2 q k) = BitVec.ofNat 32 k.val :=
  iota_single_apply .tc S32x32000 32 1 iota_S32x32000_d1_w32 (ix2 q k)

/-! ## The body's intermediate columns, named, each read at row `q` -/

/-- Row maximum with the reduced axis kept: a `[32, 1]` column. -/
def vMax (x0 : FVec Ideal S32x32000 .f32) : FVec Ideal S32x1 .f32 :=
  shapeCast S32x1 (multiReduction (F := Ideal) .maximumf [1] S32 x0 0xFF800000#32 reduces_S32x32000_S32 (.inl rfl) rfl)
    shapeCasts_S32_S32x1

theorem vMax_apply (x0 : FVec Ideal S32x32000 .f32) (q : Fin 32) :
    vMax x0 (ix2 q 0) = (Finset.univ : Finset (Fin 32000)).fold max ⊥ (fun k => x0 (ix2 q k)) :=
  (shapeCast_a_a1_apply _ _ q 0).trans (laneMax_apply x0 _ _ q)

/-- Σ_k exp (x − max) with the reduced axis kept. -/
def vSumExp (x0 : FVec Ideal S32x32000 .f32) : FVec Ideal S32x1 .f32 :=
  shapeCast S32x1
    (multiReduction (F := Ideal) .add [1] S32
      (exp (subf x0 (broadcastTo S32x32000 (vMax x0) broadcasts_S32x1_S32x32000)))
      0x00000000#32 reduces_S32x32000_S32 (.inl rfl) rfl)
    shapeCasts_S32_S32x1

theorem vSumExp_apply (x0 : FVec Ideal S32x32000 .f32) (q : Fin 32) :
    vSumExp x0 (ix2 q 0)
      = ∑ k : Fin 32000, Ideal.exp (x0 (ix2 q k) - (Finset.univ : Finset (Fin 32000)).fold max ⊥ (fun k => x0 (ix2 q k))) :=
  (shapeCast_a_a1_apply _ _ q 0).trans <| (laneSum_apply _ _ _ q).trans <| Finset.sum_congr rfl fun k _ =>
    congrArg (fun m => Ideal.exp (x0 (ix2 q k) - m))
      ((broadcastTo_a1_ab_apply (vMax x0) broadcasts_S32x1_S32x32000 q k).trans (vMax_apply x0 q))

/-- The column the body gathers at: the label, 0 where it is the ignore word, clipped into [0, 31999]. -/
def vSafe (x1 : IVec S32x1 32) : IVec S32x1 32 :=
  minsi (broadcast S32x1 31999#32)
    (maxsi (broadcast S32x1 0#32) (select (cmpi .ne x1 (broadcast S32x1 4294967196#32)) x1 (broadcast S32x1 0#32)))

theorem vSafe_apply (x1 : IVec S32x1 32) (i : S32x1.Idx) :
    vSafe x1 i = IntOp.minsi 31999#32 (IntOp.maxsi 0#32 (Scalar.select (IntOp.cmpi .ne (x1 i) 4294967196#32) (x1 i) 0#32)) := rfl

/-- The gathered logit: the row summed under the mask "column = gathered label", reduced axis kept. -/
def vGather (x0 : FVec Ideal S32x32000 .f32) (x1 : IVec S32x1 32) : FVec Ideal S32x1 .f32 :=
  shapeCast S32x1
    (multiReduction (F := Ideal) .add [1] S32
      (select
        (cmpi .eq (iota .tc S32x32000 32 [1] iota_S32x32000_d1_w32)
          (broadcastTo S32x32000 (vSafe x1) broadcasts_S32x1_S32x32000))
        x0 (broadcast S32x32000 (FloatOps.ofBits (F := Ideal) .f32 0x00000000#32)))
      0x00000000#32 reduces_S32x32000_S32 (.inl rfl) rfl)
    shapeCasts_S32_S32x1

theorem vGather_apply (x0 : FVec Ideal S32x32000 .f32) (x1 : IVec S32x1 32) (q : Fin 32) :
    vGather x0 x1 (ix2 q 0)
      = ∑ k : Fin 32000, Scalar.select (IntOp.cmpi .eq (BitVec.ofNat 32 k.val) (vSafe x1 (ix2 q 0))) (x0 (ix2 q k))
          (Ideal.ofBits .f32 0x00000000#32) :=
  (shapeCast_a_a1_apply _ _ q 0).trans <| (laneSum_apply _ _ _ q).trans <| Finset.sum_congr rfl fun k _ =>
    show Scalar.select
          (IntOp.cmpi .eq (iota .tc S32x32000 32 [1] iota_S32x32000_d1_w32 (ix2 q k))
            (broadcastTo S32x32000 (vSafe x1) broadcasts_S32x1_S32x32000 (ix2 q k)))
          (x0 (ix2 q k)) (Ideal.ofBits .f32 0x00000000#32)
        = Scalar.select (IntOp.cmpi .eq (BitVec.ofNat 32 k.val) (vSafe x1 (ix2 q 0))) (x0 (ix2 q k))
          (Ideal.ofBits .f32 0x00000000#32) from by
      rw [iota_col_apply, broadcastTo_a1_ab_apply]

/-- The float of "label is not the ignore word". -/
def vValid (x1 : IVec S32x1 32) : FVec Ideal S32x1 .f32 :=
  sitofp .f32 (extui 32 (cmpi .ne x1 (broadcast S32x1 4294967196#32)) natLt_1_32)

theorem vValid_apply (x1 : IVec S32x1 32) (i : S32x1.Idx) :
    vValid x1 i = FloatOps.sitofp (F := Ideal) .f32 ((IntOp.cmpi .ne (x1 i) 4294967196#32).setWidth 32) := rfl

/-- The tile's loss payload over the named columns. -/
theorem pay8_unfold (x0 : Vec Ideal S32x32000 .f32) (x1 : Vec Ideal S32x1 .i32) :
    k0_pay8 (F := Ideal) x0 x1
      = shapeCast S1x1
          (multiReduction (F := Ideal) .add [0] S1
            (mulf (subf (addf (vMax x0) (log (vSumExp x0))) (vGather x0 x1)) (vValid x1))
            0x00000000#32 reduces_S32x1_S1 (.inl rfl) rfl)
          shapeCasts_S1_S1x1 := by
  unfold k0_pay8 k0_pay7 k0_pay6 k0_pay5
  simp only [shapeCast_self]
  rfl

/-! ## One row of the tile -/

/-- What the body computes for a row `x` with label word `l`: (max + log Σ exp (x − max)) − (the row summed under
    the mask "column = clipped label"), times the float of "label is not the ignore word". -/
def bodyRow (x : Fin 32000 → EReal) (l : BitVec 32) : EReal :=
  (((Finset.univ : Finset (Fin 32000)).fold max ⊥ x
      + Ideal.log (∑ k : Fin 32000, Ideal.exp (x k - (Finset.univ : Finset (Fin 32000)).fold max ⊥ x)))
    - ∑ k : Fin 32000, Scalar.select
        (IntOp.cmpi .eq (BitVec.ofNat 32 k.val)
          (IntOp.minsi 31999#32 (IntOp.maxsi 0#32 (Scalar.select (IntOp.cmpi .ne l 4294967196#32) l 0#32))))
        (x k) (Ideal.ofBits .f32 0x00000000#32))
  * FloatOps.sitofp (F := Ideal) .f32 ((IntOp.cmpi .ne l 4294967196#32).setWidth 32)

/-- For a label that is the ignore word or in range, that is the row's contribution to the loss sum. -/
theorem bodyRow_eq (x : Fin 32000 → EReal) (l : BitVec 32) (hl : l = Cert.Spec.ign ∨ l.toNat < 32000) :
    bodyRow x l = Cert.Spec.rowLoss x l := by
  unfold bodyRow Cert.Spec.rowLoss
  rw [validFactor]
  rcases hl with h | h
  · rw [if_pos h, if_pos h, mul_zero]
  · have hne : l ≠ Cert.Spec.ign := ne_ign_of_lt l h
    rw [if_neg hne, if_neg hne, mul_one, safe_label l h]
    have hg : (∑ k : Fin 32000, Scalar.select (IntOp.cmpi .eq (BitVec.ofNat 32 k.val) l) (x k)
          (Ideal.ofBits .f32 0x00000000#32)) = x (Cert.Spec.colFin l) := by
      rw [← Cert.RowMath.sum_ite_col x (Cert.Spec.colFin l)]
      refine Finset.sum_congr rfl fun k _ => ?_
      rw [select_cmpi_eq, Ideal.ofBits_zero_f32]
      by_cases hk : k = Cert.Spec.colFin l
      · rw [if_pos hk, if_pos ((ofNat_eq_iff l h k).mpr hk)]
      · rw [if_neg hk, if_neg (fun e => hk ((ofNat_eq_iff l h k).mp e))]
    rw [hg]
    rfl

/-! ## The payloads -/

/-- The tile's loss payload: the sum over its 32 rows of what the body computes for each. -/
theorem pay8_rows (x0 : Vec Ideal S32x32000 .f32) (x1 : Vec Ideal S32x1 .i32) :
    k0_pay8 (F := Ideal) x0 x1 = fun _ => ∑ q : Fin 32, bodyRow (fun j => x0 (ix2 q j)) (x1 (ix2 q 0)) := by
  funext j
  obtain ⟨a, b, rfl⟩ : ∃ (a b : Fin 1), j = ix2 a b := ⟨j 0, j 1, eq_ix2 j⟩
  obtain rfl : a = 0 := Subsingleton.elim _ _
  obtain rfl : b = 0 := Subsingleton.elim _ _
  rw [pay8_unfold]
  refine (shapeCast_a_1a_apply _ _ 0 0).trans ?_
  refine (rowsSum_apply _ _ _ 0).trans ?_
  refine Finset.sum_congr rfl fun q _ => ?_
  rw [mulf_apply, subf_apply, addf_apply, log_apply, vMax_apply, vSumExp_apply, vGather_apply, vSafe_apply,
    vValid_apply]
  rfl

/-- The tile's loss payload is the sum of its 32 rows' contributions to the loss sum. -/
theorem pay8_eq (x0 : Vec Ideal S32x32000 .f32) (x1 : Vec Ideal S32x1 .i32)
    (hfin : ∀ i, ∃ r : ℝ, x0 i = (r : EReal))
    (hlab : ∀ i, x1 i = Cert.Spec.ign ∨ (x1 i).toNat < 32000) :
    k0_pay8 (F := Ideal) x0 x1
      = fun _ => ∑ q : Fin 32, Cert.Spec.rowLoss (fun j => x0 (ix2 q j)) (x1 (ix2 q 0)) := by
  rw [pay8_rows]
  funext _
  exact Finset.sum_congr rfl fun q _ => bodyRow_eq _ _ (hlab (ix2 q 0))

/-- The tile's count payload over the named column. -/
theorem pay9_unfold (x1 : Vec Ideal S32x1 .i32) :
    k0_pay9 (F := Ideal) x1
      = shapeCast S1x1
          (multiReduction (F := Ideal) .add [0] S1 (vValid x1) 0x00000000#32 reduces_S32x1_S1 (.inl rfl) rfl)
          shapeCasts_S1_S1x1 := by
  unfold k0_pay9 k0_pay7 k0_pay6 k0_pay5
  simp only [shapeCast_self]
  rfl

/-- The tile's count payload is the number of its counted rows. -/
theorem pay9_eq (x1 : Vec Ideal S32x1 .i32) :
    k0_pay9 (F := Ideal) x1 = fun _ => ∑ q : Fin 32, Cert.Spec.validF (x1 (ix2 q 0)) := by
  funext j
  obtain ⟨a, b, rfl⟩ : ∃ (a b : Fin 1), j = ix2 a b := ⟨j 0, j 1, eq_ix2 j⟩
  obtain rfl : a = 0 := Subsingleton.elim _ _
  obtain rfl : b = 0 := Subsingleton.elim _ _
  rw [pay9_unfold]
  refine (shapeCast_a_1a_apply _ _ 0 0).trans ?_
  refine (rowsSum_apply _ _ _ 0).trans ?_
  refine Finset.sum_congr rfl fun q _ => ?_
  rw [vValid_apply]
  exact validFactor _

/-- The stored loss accumulator: the accumulator read plus the tile's value. -/
theorem pay1_eq (u : FVec Ideal S1x1 .f32) (v : Vec Ideal S1x1x1 .f32) :
    k0_pay1 (F := Ideal) u v = fun _ => v (ix3 0 0 0) + u (ix2 0 0) := by
  funext j
  obtain ⟨a, b, c, rfl⟩ : ∃ (a b c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  unfold k0_pay1
  refine (shapeCast_ab_1ab_apply _ _ 0 0 0).trans ?_
  show shapeCast S1x1 v shapeCasts_S1x1x1_S1x1 (ix2 0 0) + u (ix2 0 0) = _
  rw [shapeCast_1ab_ab_apply]

/-- The stored count accumulator: the accumulator read plus the tile's count. -/
theorem pay2_eq (u : FVec Ideal S1x1 .f32) (v : Vec Ideal S1x1x1 .f32) :
    k0_pay2 (F := Ideal) u v = fun _ => v (ix3 0 0 0) + u (ix2 0 0) := by
  funext j
  obtain ⟨a, b, c, rfl⟩ : ∃ (a b c : Fin 1), j = ix3 a b c := ⟨j 0, j 1, j 2, eq_ix3 j⟩
  obtain rfl : a = 0 := Subsingleton.elim _ _
  obtain rfl : b = 0 := Subsingleton.elim _ _
  obtain rfl : c = 0 := Subsingleton.elim _ _
  unfold k0_pay2
  refine (shapeCast_ab_1ab_apply _ _ 0 0 0).trans ?_
  show shapeCast S1x1 v shapeCasts_S1x1x1_S1x1 (ix2 0 0) + u (ix2 0 0) = _
  rw [shapeCast_1ab_ab_apply]

/-- The loss accumulator's initial value is 0. -/
theorem pay3_eq : k0_pay3 (F := Ideal) = fun _ => 0 := by
  funext j
  unfold k0_pay3
  show Ideal.ofBits .f32 0x00000000#32 = 0
  exact Ideal.ofBits_zero_f32

/-- The count accumulator's initial value is 0. -/
theorem pay4_eq : k0_pay4 (F := Ideal) = fun _ => 0 := by
  funext j
  unfold k0_pay4
  show Ideal.ofBits .f32 0x00000000#32 = 0
  exact Ideal.ofBits_zero_f32

end Cert.KernelIdeal.KPay

end
-- ==== Proof.KIBlocks.lean ====
/-
  The two input windows' blocks read as rows of the program's arguments.

  Before the region the program reshapes the [4, 1024, 32000] logits to [4096, 32000] and the [4, 1024] labels to
  [4096, 1]; a reshape keeps row-major positions, so row r of either is (r / 1024, r % 1024) of the argument.  At grid
  point t the two input windows hand the body rows 32·t … 32·t + 31 of those arrays (all 32000 columns of the logits,
  the one column of the labels).  So every entry of a block is an entry of the argument it came from.
-/
import proofs.«426438_j56418690400290_3_alg».proof.Proof.KIKit
import proofs.«426438_j56418690400290_3_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Blocks

open Cert.KernelIdeal Cert.KernelIdeal.Gen Cert.KernelIdeal.Fr
open Idealize.ShloMosaic Idealize.ShloMosaic.TcCoe Idealize.ShloMosaic.ValueIdx

/-! ## The reshapes at an index -/

/-- The [4, 1024, 32000] → [4096, 32000] reshape at (r, j): entry (r / 1024, r % 1024, j), the same row-major position. -/
theorem reshape_rows (a0 : S4x1024x32000.Idx → EReal) (r : Fin 4096) (j : Fin 32000) :
    shapeCast S4096x32000 a0 shapeCasts_S4x1024x32000_S4096x32000 (ix2 r j) = Cert.Spec.rows2d a0 r j := by
  unfold Cert.Spec.rows2d
  refine shapeCast_apply _ _ _ _ ?_
  rw [Shape.rowMajor_val_three, Shape.rowMajor_val_two]
  show (r.val / 1024 * 1024 + r.val % 1024) * 32000 + j.val = r.val * 32000 + j.val
  omega

/-- The [4, 1024] → [4096, 1] reshape at (r, 0): entry (r / 1024, r % 1024). -/
theorem reshape_labels (a1 : S4x1024.Idx → BitVec 32) (r : Fin 4096) :
    shapeCast S4096x1 a1 shapeCasts_S4x1024_S4096x1 (ix2 r 0) = Cert.Spec.labs1d a1 r := by
  unfold Cert.Spec.labs1d
  refine shapeCast_apply _ _ _ _ ?_
  rw [Shape.rowMajor_val_two, Shape.rowMajor_val_two]
  show r.val / 1024 * 1024 + r.val % 1024 = r.val * 1 + 0
  omega

variable (m : (ℓ : Loc nD τ sig) → Buf (Elt Ideal) ℓ)

/-! ## The windows' arrays as the region finds them -/

/-- Window 0's array is the reshaped logits. -/
theorem V_main_v0_eq (c : Dev nD) :
    (V m c main_v0 : S4096x32000.Idx → EReal)
      = shapeCast S4096x32000 (m ((c : Thread nD τ).loc main_arg0)) shapeCasts_S4x1024x32000_S4096x32000 := by
  dsimp only [V, V0, hostOps0]
  simp only [List.flatten_cons, List.flatten_nil, List.append_nil]
  after_results
  rfl

/-- Window 1's array is the reshaped labels. -/
theorem V_main_v1_eq (c : Dev nD) :
    (V m c main_v1 : S4096x1.Idx → BitVec 32)
      = shapeCast S4096x1 (m ((c : Thread nD τ).loc main_arg1)) shapeCasts_S4x1024_S4096x1 := by
  dsimp only [V, V0, hostOps0]
  simp only [List.flatten_cons, List.flatten_nil, List.append_nil]
  after_results
  rfl

/-- Row r, column j of window 0's array is row r, column j of the logits read as [4096, 32000]. -/
theorem V_main_v0_apply (c : Dev nD) (r : Fin 4096) (j : Fin 32000) :
    (V m c main_v0 : S4096x32000.Idx → EReal) (ix2 r j) = Cert.Spec.rows2d (m ((c : Thread nD τ).loc main_arg0)) r j := by
  rw [V_main_v0_eq, reshape_rows]

/-- Row r of window 1's array is label r of the labels read as [4096]. -/
theorem V_main_v1_apply (c : Dev nD) (r : Fin 4096) :
    (V m c main_v1 : S4096x1.Idx → BitVec 32) (ix2 r 0) = Cert.Spec.labs1d (m ((c : Thread nD τ).loc main_arg1)) r := by
  rw [V_main_v1_eq, reshape_labels]

/-! ## The blocks -/

/-- Window 0's block index at point t: (t, 0). -/
theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)

/-- Window 1's block index at point t: (t, 0). -/
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)

/-- Entry (q, j) of window 0's block at point t is row 32·t + q, column j of the logits. -/
theorem iblk0_apply (c : Dev nD) (t : Fin cfg0.N) (q : Fin 32) (j : Fin 32000) :
    (iblk m c 0 t : S32x32000.Idx → EReal) (ix2 q j)
      = Cert.Spec.rows2d (m ((c : Thread nD τ).loc main_arg0))
          ⟨32 * t.val + q.val, by have := t.isLt; have : cfg0.N = 128 := N_0; have := q.isLt; omega⟩ j := by
  rw [← V_main_v0_apply m c]
  unfold iblk
  rw [View.read_apply]
  show V m c main_v0 (((cfg0.win 0).blk t).view.emb (ix2 q j)) = V m c main_v0 (ix2 ⟨32 * t.val + q.val, _⟩ j)
  refine congrArg _ (funext fun a => Fin.ext ?_)
  obtain ⟨e0, e1⟩ := idx0 t
  match a with
  | ⟨0, _⟩ => show win0_0.index t (0 : Fin 2) * 32 + 1 * q.val = 32 * t.val + q.val; omega
  | ⟨1, _⟩ => show win0_0.index t (1 : Fin 2) * 32000 + 1 * j.val = j.val; omega

/-- Entry (q, 0) of window 1's block at point t is label 32·t + q. -/
theorem iblk1_apply (c : Dev nD) (t : Fin cfg0.N) (q : Fin 32) :
    (iblk m c 1 t : S32x1.Idx → BitVec 32) (ix2 q 0)
      = Cert.Spec.labs1d (m ((c : Thread nD τ).loc main_arg1))
          ⟨32 * t.val + q.val, by have := t.isLt; have : cfg0.N = 128 := N_0; have := q.isLt; omega⟩ := by
  rw [← V_main_v1_apply m c]
  unfold iblk
  rw [View.read_apply]
  show V m c main_v1 (((cfg0.win 1).blk t).view.emb (ix2 q 0)) = V m c main_v1 (ix2 ⟨32 * t.val + q.val, _⟩ 0)
  refine congrArg _ (funext fun a => Fin.ext ?_)
  obtain ⟨e0, e1⟩ := idx1 t
  match a with
  | ⟨0, _⟩ => show win0_1.index t (0 : Fin 2) * 32 + 1 * q.val = 32 * t.val + q.val; omega
  | ⟨1, _⟩ => show win0_1.index t (1 : Fin 2) * 1 + 1 * 0 = 0; omega

/-- Every entry of window 0's block is an entry of the logits: real when they all are. -/
theorem iblk0_real (c : Dev nD) (t : Fin cfg0.N)
    (hfin : ∀ i, ∃ r : ℝ, m ((c : Thread nD τ).loc main_arg0) i = (r : EReal)) :
    ∀ y, ∃ r : ℝ, (iblk m c 0 t : S32x32000.Idx → EReal) y = (r : EReal) := by
  intro y
  obtain ⟨q, j, rfl⟩ : ∃ (q : Fin 32) (j : Fin 32000), y = ix2 q j := ⟨y 0, y 1, eq_ix2 y⟩
  rw [iblk0_apply]
  exact hfin _

/-- Every entry of window 1's block is an entry of the labels: the ignore word or a column when they all are. -/
theorem iblk1_label (c : Dev nD) (t : Fin cfg0.N)
    (hlab : ∀ i, m ((c : Thread nD τ).loc main_arg1) i = Cert.Spec.ign ∨ (m ((c : Thread nD τ).loc main_arg1) i).toNat < 32000) :
    ∀ y, (iblk m c 1 t : S32x1.Idx → BitVec 32) y = Cert.Spec.ign ∨ ((iblk m c 1 t : S32x1.Idx → BitVec 32) y).toNat < 32000 := by
  intro y
  obtain ⟨q, z, rfl⟩ : ∃ (q : Fin 32) (z : Fin 1), y = ix2 q z := ⟨y 0, y 1, eq_ix2 y⟩
  obtain rfl : z = 0 := Subsingleton.elim _ _
  rw [iblk1_apply]
  exact hlab _

end Cert.KernelIdeal.Blocks

end
-- ==== Proof.AccMath.lean ====
/-
  The accumulator over the grid in closed form.

  The grid runs in stretches of 64 steps.  At the first step of a stretch the running value is reset and the step's
  tile value added; at every other step the tile value is added to the previous running value.  So after step k of
  stretch h the running value is the sum of the tile values of steps 0 … k of that stretch, and after its last step
  the sum of all 64.
-/
import Mathlib.Algebra.BigOperators.Group.Finset.Basic
import Mathlib.Algebra.BigOperators.Fin

namespace Cert.AccMath

open scoped BigOperators

/-- The running value depends on the step only, not on the proof that the step is in range. -/
private theorem acc_congr {M : Type*} {N : ℕ} (acc : (n : ℕ) → n < N → M) {n n' : ℕ} (e : n = n')
    (hn : n < N) (hn' : n' < N) : acc n hn = acc n' hn' := by
  subst e; rfl

/-- After step k of stretch h the running value is the sum of the stretch's tile values up to step k:
    step 0 resets and adds its tile value, step k + 1 adds its tile value to the sum up to step k. -/
theorem acc_prefix_lt {M : Type*} [AddCommMonoid M] (N : ℕ) (acc : (n : ℕ) → n < N → M) (tile : ℕ → M)
    (h0 : ∀ n (hn : n < N), n % 64 = 0 → acc n hn = 0 + tile n)
    (hs : ∀ n (hn : n < N), n % 64 ≠ 0 → acc n hn = acc (n - 1) (by omega) + tile n) (h : ℕ) :
    ∀ k (hk : k < 64) (hN : 64 * h + k < N),
      acc (64 * h + k) hN = ∑ i ∈ Finset.range (k + 1), tile (64 * h + i) := by
  intro k
  induction k with
  | zero =>
    intro _ hN
    rw [h0 _ hN (by omega), zero_add, Finset.sum_range_one]
  | succ k ih =>
    intro hk hN
    have hprev : 64 * h + k < N := by omega
    have e : acc (64 * h + (k + 1) - 1) (by omega) = acc (64 * h + k) hprev := acc_congr acc (by omega) _ _
    rw [hs _ hN (by omega), e, ih (by omega) hprev]
    exact (Finset.sum_range_succ (fun i => tile (64 * h + i)) (k + 1)).symm

/-- The running value after the last step of stretch h, for an accumulator defined below N only:
    the sum of the stretch's 64 tile values. -/
theorem acc_closed_lt {M : Type*} [AddCommMonoid M] (N : ℕ) (acc : (n : ℕ) → n < N → M) (tile : ℕ → M) (h0 : ∀ n (hn : n < N), n % 64 = 0 → acc n hn = 0 + tile n) (hs : ∀ n (hn : n < N), n % 64 ≠ 0 → acc n hn = acc (n - 1) (by omega) + tile n) (h : ℕ) (hh : 64 * h + 63 < N) : acc (64 * h + 63) hh = ∑ i : Fin 64, tile (64 * h + i.val) :=
  (acc_prefix_lt N acc tile h0 hs h 63 (by omega) hh).trans (Finset.sum_range fun i => tile (64 * h + i))

/-- The running value after the last step of stretch h: the sum of the stretch's 64 tile values. -/
theorem acc_closed {M : Type*} [AddCommMonoid M] (acc tile : ℕ → M) (h0 : ∀ n, n % 64 = 0 → acc n = 0 + tile n) (hs : ∀ n, n % 64 ≠ 0 → acc n = acc (n - 1) + tile n) (h : ℕ) : acc (64 * h + 63) = ∑ i : Fin 64, tile (64 * h + i.val) :=
  acc_closed_lt (64 * h + 64) (fun n _ => acc n) tile (fun n _ hn => h0 n hn) (fun n _ hn => hs n hn) h (by omega)

end Cert.AccMath
-- ==== Proof.KIAcc.lean ====
/-
  The two accumulators over the grid, at the extended reals. Tile n (rows 32·n … 32·n+31 of the 4096) contributes the
  sum of its rows' losses to the loss accumulator and the number of its counted rows to the count accumulator; an
  accumulator is reset at the first step of each half of the grid (64 steps) and added to at every step, so after the
  last step of half h it holds the sum over the half's 64 tiles.
-/
import proofs.«426438_j56418690400290_3_alg».proof.Proof.KIFrame
import proofs.«426438_j56418690400290_3_alg».proof.Proof.KPay
import proofs.«426438_j56418690400290_3_alg».proof.Proof.KIBlocks
import proofs.«426438_j56418690400290_3_alg».proof.Proof.AccMath

set_option maxRecDepth 16384

noncomputable section

namespace Cert.KernelIdeal.Val

open Cert.KernelIdeal Cert.KernelIdeal.Gen Cert.KernelIdeal.Fr Cert.KernelIdeal.KPay Cert.KernelIdeal.Blocks
open Idealize.ShloMosaic Idealize.ShloMosaic.TcCoe Idealize.SL.Sem Idealize.ShloMosaic.ValueIdx
open Cert.Spec
open scoped BigOperators

variable (m : (ℓ : Loc nD τ sig) → Buf (Elt Ideal) ℓ)

/-- Row r (taken modulo 4096) of the logits as the kernel's program receives them. -/
abbrev rowOf (c : Dev nD) (r : ℕ) : Fin 32000 → EReal :=
  rows2d (m ((c : Thread nD τ).loc main_arg0)) ⟨r % 4096, Nat.mod_lt _ (by norm_num)⟩
/-- Label r (taken modulo 4096). -/
abbrev labOf (c : Dev nD) (r : ℕ) : BitVec 32 :=
  labs1d (m ((c : Thread nD τ).loc main_arg1)) ⟨r % 4096, Nat.mod_lt _ (by norm_num)⟩

/-- Tile n's loss sum: the losses of rows 32·n … 32·n+31. -/
def tileLoss (c : Dev nD) (n : ℕ) : EReal := ∑ q : Fin 32, rowLoss (rowOf m c (32 * n + q.val)) (labOf m c (32 * n + q.val))
/-- Tile n's count of counted rows. -/
def tileCnt (c : Dev nD) (n : ℕ) : EReal := ∑ q : Fin 32, validF (labOf m c (32 * n + q.val))

variable (hfin : ∀ (c : Dev nD) i, ∃ r : ℝ, m ((c : Thread nD τ).loc main_arg0) i = (r : EReal))
variable (hlab : ∀ (c : Dev nD) i, m ((c : Thread nD τ).loc main_arg1) i = ign ∨ (m ((c : Thread nD τ).loc main_arg1) i).toNat < 32000)

theorem row_eq (c : Dev nD) (t : Fin cfg0.N) (q : Fin 32) :
    (fun j => (iblk m c 0 t : S32x32000.Idx → EReal) (ix2 q j)) = rowOf m c (32 * t.val + q.val) := by
  have hN : t.val < 128 := lt_of_lt_of_eq t.isLt (show cfg0.N = 128 from N_0)
  funext j
  rw [iblk0_apply m c t q j]
  unfold rowOf
  congr 1
  exact Fin.ext (by dsimp only; have := q.isLt; omega)

theorem lab_eq (c : Dev nD) (t : Fin cfg0.N) (q : Fin 32) :
    (iblk m c 1 t : S32x1.Idx → BitVec 32) (ix2 q 0) = labOf m c (32 * t.val + q.val) := by
  have hN : t.val < 128 := lt_of_lt_of_eq t.isLt (show cfg0.N = 128 from N_0)
  rw [iblk1_apply m c t q]
  unfold labOf
  congr 1
  exact Fin.ext (by dsimp only; have := q.isLt; omega)

include hfin hlab in
/-- The tile's loss payload at point t is tile t's loss sum. -/
theorem pay8_tile (c : Dev nD) (t : Fin cfg0.N) :
    k0_pay8 (F := Ideal) (iblk m c 0 t) (iblk m c 1 t) = fun _ => tileLoss m c t.val := by
  rw [pay8_eq _ _ (iblk0_real m c t (hfin c)) (iblk1_label m c t (hlab c))]
  funext _
  unfold tileLoss
  refine Finset.sum_congr rfl fun q _ => ?_
  rw [row_eq m c t q, lab_eq m c t q]

/-- The tile's count payload at point t is tile t's count. -/
theorem pay9_tile (c : Dev nD) (t : Fin cfg0.N) :
    k0_pay9 (F := Ideal) (iblk m c 1 t) = fun _ => tileCnt m c t.val := by
  rw [pay9_eq]
  funext _
  unfold tileCnt
  refine Finset.sum_congr rfl fun q _ => ?_
  rw [lab_eq m c t q]

end Cert.KernelIdeal.Val

end
-- ==== Proof.KTail.lean ====
/-
  The host operations that follow the kernel's launch, read as one value.

  After the launch the program holds two [2, 1, 1] arrays of partial results, the loss sums and the counts of counted
  rows, one entry per half of the grid.  The 72 operations after it add the two halves of each, divide the loss sum by
  max(count, 1), compute the pairwise ranking loss of the 64 ranking scores, and return 1·(language-model loss) +
  10·(ranking loss).  Here the ranking part is folded into one function `rankK` of the two ranking inputs, in the
  program's own operation order, and the whole tail is read at the extended reals as `Spec.total (Spec.lmOf s cnt) rank`.
-/
import proofs.«426438_j56418690400290_3_alg».proof.Proof.Gen.KernelIdeal.Launch
import proofs.«426438_j56418690400290_3_alg».proof.Proof.Spec
import Idealize.ShloMosaic.Lib.StableHlo.Run
import Idealize.ShloMosaic.Lib.Pipeline.Value
import Idealize.ShloMosaic.Lib.ValueIdx

noncomputable section

namespace Cert.KernelIdeal.KTail

open Idealize.ShloMosaic Idealize.ShloMosaic.ValueIdx
open Cert.KernelIdeal Cert.KernelIdeal.Gen

variable {F : FTy → Type} [FloatOps F]

/-- The seven stretches of operations after the launch, in order. -/
abbrev tailOps : List (List (HloOp τ sig (Elt F))) :=
  [hostOps1, hostOps1_1, hostOps1_2, hostOps1_3, hostOps1_4, hostOps1_5, hostOps1_6]

/-- The kernel program's ranking loss as a function of the ranking logits and the rankings: the host operations
    %15 … %40 of its @main composed (the pair mask i < j ∧ r_i < r_j, the weight 1 / (r_i + r_j), softplus of
    s_j − s_i, the masked sum over the 64 × 64 pairs, divided by 64). -/
def rankK (a2 : (⟨S64, .f32⟩ : BufTy).Contents (Elt F)) (a3 : (⟨S64, .i32⟩ : BufTy).Contents (Elt F)) :
    (⟨S_, .f32⟩ : BufTy).Contents (Elt F) :=
  -- the rankings as floats
  let r : (⟨S64, .f32⟩ : BufTy).Contents (Elt F) := sitofp (F := F) .f32 a3
  -- strict upper triangle: not (row + 0 ≥ column)
  let ones : (⟨S64x64, .i1⟩ : BufTy).Contents (Elt F) := broadcastInDim S64x64 ![] bcast_S_S64x64 (constantI S_ 1 1#1)
  let tri : (⟨S64x64, .i1⟩ : BufTy).Contents (Elt F) :=
    select (cmpi .sge (addi (iotaInDim S64x64 32 0) (broadcastInDim S64x64 ![] bcast_S_S64x64 (constantI S_ 32 0#32))) (iotaInDim S64x64 32 1))
      (broadcastInDim S64x64 ![] bcast_S_S64x64 (constantI S_ 1 0#1)) ones
  let rcol : (⟨S64x64, .f32⟩ : BufTy).Contents (Elt F) := broadcastInDim S64x64 ![0, 1] bcast_S64x1_S64x64_0_1 (broadcastInDim S64x1 ![0] bcast_S64_S64x1_0 r)
  let rrow : (⟨S64x64, .f32⟩ : BufTy).Contents (Elt F) := broadcastInDim S64x64 ![0, 1] bcast_S1x64_S64x64_0_1 (broadcastInDim S1x64 ![1] bcast_S64_S1x64_1 r)
  let mask : (⟨S64x64, .i1⟩ : BufTy).Contents (Elt F) := andi tri (cmpf (F := F) .olt rcol rrow)
  let weight : (⟨S64x64, .f32⟩ : BufTy).Contents (Elt F) :=
    Host.divf (broadcastInDim S64x64 ![] bcast_S_S64x64 (constant S_ .f32 0x3F800000#32)) (addf rcol rrow)
  let diff : (⟨S64x64, .f32⟩ : BufTy).Contents (Elt F) :=
    subf (broadcastInDim S64x64 ![0, 1] bcast_S1x64_S64x64_0_1 (broadcastInDim S1x64 ![1] bcast_S64_S1x64_1 a2))
      (broadcastInDim S64x64 ![0, 1] bcast_S64x1_S64x64_0_1 (broadcastInDim S64x1 ![0] bcast_S64_S64x1_0 a2))
  let zero : (⟨S64x64, .f32⟩ : BufTy).Contents (Elt F) := broadcastInDim S64x64 ![] bcast_S_S64x64 (constant S_ .f32 0x00000000#32)
  let d0 : (⟨S64x64, .f32⟩ : BufTy).Contents (Elt F) := subf diff zero
  let softplus : (⟨S64x64, .f32⟩ : BufTy).Contents (Elt F) :=
    select (cmpf (F := F) .une d0 d0) (addf diff zero)
      (addf (maximumf diff zero) (Host.log1p (Host.exp (Host.negf (Host.absf d0)))))
  let pair : (⟨S64x64, .f32⟩ : BufTy).Contents (Elt F) :=
    select mask (mulf weight softplus) (broadcastInDim S64x64 ![] bcast_S_S64x64 (id (constant S_ .f32 0x00000000#32)))
  Host.divf (Host.reduceAdd pair (constant S_ .f32 0x00000000#32) reducesTo_S64x64_S_d0_1 h_S_) (constant S_ .f32 0x42800000#32)

/-! ## One-element slices read at their entry -/

/-- Entry (0, 0, 0) of a [2, 1, 1] array, sliced out and reshaped to a rank-0 value. -/
theorem half0_read {α : Type} (x : S2x1x1.Idx → α) :
    shapeCast S_ (extractStridedSlice S1x1x1 ![0, 0, 0] x slices_S2x1x1_S1x1x1_0_0_0) shapeCasts_S1x1x1_S_ ix0
      = x (ix3 0 0 0) := by
  refine (shapeCast_apply _ shapeCasts_S1x1x1_S_ ix0 (ix3 0 0 0) ?_).trans ?_
  · -- both shapes have one index, at row-major position 0
    have h1 := (S1x1x1.rowMajor (ix3 0 0 0)).isLt
    have h2 := (S_.rowMajor ix0).isLt
    have e1 : S1x1x1.numel = 1 := by decide
    have e2 : S_.numel = 1 := by decide
    omega
  · exact extractStridedSlice_apply _ x slices_S2x1x1_S1x1x1_0_0_0 (ix3 0 0 0) (ix3 0 0 0)
      fun a => match a with | ⟨0, _⟩ => rfl | ⟨1, _⟩ => rfl | ⟨2, _⟩ => rfl

/-- Entry (1, 0, 0) of a [2, 1, 1] array, sliced out and reshaped to a rank-0 value. -/
theorem half1_read {α : Type} (x : S2x1x1.Idx → α) :
    shapeCast S_ (extractStridedSlice S1x1x1 ![1, 0, 0] x slices_S2x1x1_S1x1x1_1_0_0) shapeCasts_S1x1x1_S_ ix0
      = x (ix3 1 0 0) := by
  refine (shapeCast_apply _ shapeCasts_S1x1x1_S_ ix0 (ix3 0 0 0) ?_).trans ?_
  · have h1 := (S1x1x1.rowMajor (ix3 0 0 0)).isLt
    have h2 := (S_.rowMajor ix0).isLt
    have e1 : S1x1x1.numel = 1 := by decide
    have e2 : S_.numel = 1 := by decide
    omega
  · exact extractStridedSlice_apply _ x slices_S2x1x1_S1x1x1_1_0_0 (ix3 0 0 0) (ix3 1 0 0)
      fun a => match a with | ⟨0, _⟩ => rfl | ⟨1, _⟩ => rfl | ⟨2, _⟩ => rfl

/-! ## The tail's value -/

/-- What the last operation's buffer holds after the tail, at any float instance: the operations composed, the
    ranking part as `rankK` of the two ranking inputs. -/
theorem tail_result (W : Valuation τ sig (Elt F)) :
    StableHlo.after (tailOps (F := F)).flatten W (Proc.devRef .tc main_v43)
      = addf (F := F)
          (mulf (F := F) (constant (F := F) S_ .f32 0x3F800000#32)
            (Host.divf (F := F)
              (addf (F := F)
                (shapeCast S_ (extractStridedSlice S1x1x1 ![0, 0, 0] (W (Proc.devRef .tc main_v2_0) : FVec F S2x1x1 .f32) slices_S2x1x1_S1x1x1_0_0_0) shapeCasts_S1x1x1_S_)
                (shapeCast S_ (extractStridedSlice S1x1x1 ![1, 0, 0] (W (Proc.devRef .tc main_v2_0) : FVec F S2x1x1 .f32) slices_S2x1x1_S1x1x1_1_0_0) shapeCasts_S1x1x1_S_))
              (maximumf (F := F)
                (addf (F := F)
                  (shapeCast S_ (extractStridedSlice S1x1x1 ![0, 0, 0] (W (Proc.devRef .tc main_v2_1) : FVec F S2x1x1 .f32) slices_S2x1x1_S1x1x1_0_0_0) shapeCasts_S1x1x1_S_)
                  (shapeCast S_ (extractStridedSlice S1x1x1 ![1, 0, 0] (W (Proc.devRef .tc main_v2_1) : FVec F S2x1x1 .f32) slices_S2x1x1_S1x1x1_1_0_0) shapeCasts_S1x1x1_S_))
                (constant (F := F) S_ .f32 0x3F800000#32))))
          (mulf (F := F) (constant (F := F) S_ .f32 0x41200000#32)
            (rankK (F := F) (W (Proc.devRef .tc main_arg2)) (W (Proc.devRef .tc main_arg3)))) := by
  simp only [tailOps, hostOps1, hostOps1_1, hostOps1_2, hostOps1_3, hostOps1_4, hostOps1_5, hostOps1_6,
    List.flatten_cons, List.flatten_nil, List.append_nil, List.cons_append, List.nil_append]
  after_results_simp
  -- a module-local function's operations move contents along an identity of buffer types
  simp only [StableHlo.TRef.ofBuf, StableHlo.TRef.toBuf, cast_eq, id_eq]
  rfl

/-- The tail at the extended reals: with `s` the two halves of the loss sums added and `cnt` the two halves of the
    counts added, the result is 1·(s / max(cnt, 1)) + 10·(the ranking loss).  Every operation of the language-model
    part reads through at the one index of a rank-0 value; the two slices read entries (0,0,0) and (1,0,0). -/
theorem tail_result_ideal (W : Valuation τ sig (Elt Ideal)) :
    StableHlo.after (tailOps (F := Ideal)).flatten W (Proc.devRef .tc main_v43)
      = fun _ => Cert.Spec.total
          (Cert.Spec.lmOf
            (HAdd.hAdd (α := EReal) (β := EReal) (γ := EReal)
              (W (Proc.devRef .tc main_v2_0) (ix3 0 0 0)) (W (Proc.devRef .tc main_v2_0) (ix3 1 0 0)))
            (HAdd.hAdd (α := EReal) (β := EReal) (γ := EReal)
              (W (Proc.devRef .tc main_v2_1) (ix3 0 0 0)) (W (Proc.devRef .tc main_v2_1) (ix3 1 0 0))))
          (rankK (F := Ideal) (W (Proc.devRef .tc main_arg2)) (W (Proc.devRef .tc main_arg3)) ix0) := by
  rw [tail_result]
  funext i
  obtain rfl := eq_ix0 i
  unfold Cert.Spec.total Cert.Spec.lmOf
  exact congrArg₂ (· + ·)
    (congrArg (Cert.Spec.one32 * ·)
      (congrArg₂ Ideal.div (congrArg₂ (· + ·) (half0_read _) (half1_read _))
        (congrArg (max · Cert.Spec.one32) (congrArg₂ (· + ·) (half0_read _) (half1_read _)))))
    rfl

end Cert.KernelIdeal.KTail

end
-- ==== Proof.KIValue.lean ====
/-
  The idealized kernel program's result. After the last step of half h each accumulator holds the sum over the half's
  64 tiles (the reset-then-add recurrence closed by induction on the step); the write-back there puts it at entry h of
  the accumulator's [2, 1, 1] array, and the two write-backs cover the array. The later host lines add the two entries of
  each array, divide the loss sum by max(count, 1), and add ten times the ranking loss; regrouping the 2 × 64 × 32 rows
  as the 4096 rows of the logits gives the specification's value.
-/
import proofs.«426438_j56418690400290_3_alg».proof.Proof.KIPieces
import proofs.«426438_j56418690400290_3_alg».proof.Proof.KIAcc
import proofs.«426438_j56418690400290_3_alg».proof.Proof.KTail
import proofs.«426438_j56418690400290_3_alg».proof.Proof.RowMath
import Idealize.ShloMosaic.Lib.Pipeline.Value
import Idealize.ShloMosaic.Lib.StableHlo.Run

set_option maxRecDepth 16384

noncomputable section

namespace Cert.KernelIdeal.Val

open Cert.KernelIdeal Cert.KernelIdeal.Gen Cert.KernelIdeal.Fr Cert.KernelIdeal.KPay Cert.KernelIdeal.Blocks
open Idealize.ShloMosaic Idealize.ShloMosaic.TcCoe Idealize.ShloMosaic.Tactic Idealize.SL.Sem Idealize.ShloMosaic.ValueIdx
open Idealize.ShloMosaic.Pipeline (Dat)
open Cert.Spec
open scoped BigOperators

variable (m : (ℓ : Loc nD τ sig) → Buf (Elt Ideal) ℓ)
variable (hfin : ∀ (c : Dev nD) i, ∃ r : ℝ, m ((c : Thread nD τ).loc main_arg0) i = (r : EReal))
variable (hlab : ∀ (c : Dev nD) i, m ((c : Thread nD τ).loc main_arg1) i = ign ∨ (m ((c : Thread nD τ).loc main_arg1) i).toNat < 32000)

/-! ## The accumulators after each point -/

include hfin hlab in
/-- At the first step of a half the loss accumulator ends at zero plus the tile's loss sum. -/
theorem lossAt_first (c : Dev nD) (t : Fin cfg0.N) (h0 : t.val % 64 = 0) :
    (outsAt0 m c t.val t.isLt).1 (ix3 0 0 0) = 0 + tileLoss m c t.val := by
  rw [outsAt0_A m c t h0]
  dsimp only
  rw [out_A_2, pay1_eq, pay3_eq, pay8_tile m hfin hlab c t]

include hfin hlab in
/-- At a later step it ends at what the step before left plus the tile's loss sum. -/
theorem lossAt_later (c : Dev nD) (t : Fin cfg0.N) (h0 : ¬t.val % 64 = 0) :
    (outsAt0 m c t.val t.isLt).1 (ix3 0 0 0)
      = (outsAt0 m c (t.val - 1) (Nat.lt_of_le_of_lt (Nat.sub_le _ _) t.isLt)).1 (ix3 0 0 0) + tileLoss m c t.val := by
  rw [outsAt0_B m c t h0]
  dsimp only
  rw [out_B_2, pay1_eq, pay8_tile m hfin hlab c t]

/-- At the first step of a half the count accumulator ends at zero plus the tile's count. -/
theorem cntAt_first (c : Dev nD) (t : Fin cfg0.N) (h0 : t.val % 64 = 0) :
    (outsAt0 m c t.val t.isLt).2 (ix3 0 0 0) = 0 + tileCnt m c t.val := by
  rw [outsAt0_A m c t h0]
  dsimp only
  rw [out_A_3, pay2_eq, pay4_eq, pay9_tile m c t]

/-- At a later step it ends at what the step before left plus the tile's count. -/
theorem cntAt_later (c : Dev nD) (t : Fin cfg0.N) (h0 : ¬t.val % 64 = 0) :
    (outsAt0 m c t.val t.isLt).2 (ix3 0 0 0)
      = (outsAt0 m c (t.val - 1) (Nat.lt_of_le_of_lt (Nat.sub_le _ _) t.isLt)).2 (ix3 0 0 0) + tileCnt m c t.val := by
  rw [outsAt0_B m c t h0]
  dsimp only
  rw [out_B_3, pay2_eq, pay9_tile m c t]

include hfin hlab in
/-- After the last step of half h the loss accumulator holds the sum of the half's 64 tiles' loss sums. -/
theorem lossAt_last (c : Dev nD) (h : ℕ) (hh : 64 * h + 63 < cfg0.N) :
    (outsAt0 m c (64 * h + 63) hh).1 (ix3 0 0 0) = ∑ i : Fin 64, tileLoss m c (64 * h + i.val) :=
  Cert.AccMath.acc_closed_lt cfg0.N (fun n hn => (outsAt0 m c n hn).1 (ix3 0 0 0)) (tileLoss m c)
    (fun n hn h0 => lossAt_first m hfin hlab c ⟨n, hn⟩ h0) (fun n hn h0 => lossAt_later m hfin hlab c ⟨n, hn⟩ h0) h hh

/-- After the last step of half h the count accumulator holds the sum of the half's 64 tiles' counts. -/
theorem cntAt_last (c : Dev nD) (h : ℕ) (hh : 64 * h + 63 < cfg0.N) :
    (outsAt0 m c (64 * h + 63) hh).2 (ix3 0 0 0) = ∑ i : Fin 64, tileCnt m c (64 * h + i.val) :=
  Cert.AccMath.acc_closed_lt cfg0.N (fun n hn => (outsAt0 m c n hn).2 (ix3 0 0 0)) (tileCnt m c)
    (fun n hn h0 => cntAt_first m c ⟨n, hn⟩ h0) (fun n hn h0 => cntAt_later m c ⟨n, hn⟩ h0) h hh

/-! ## The result arrays -/

/-- The loss array after the run: entry h is the sum of half h's 64 tiles' loss sums. -/
def G2 (c : Dev nD) : S2x1x1.Idx → EReal := fun idx => ∑ i : Fin 64, tileLoss m c (64 * (idx 0).val + i.val)
/-- The count array after the run. -/
def G3 (c : Dev nD) : S2x1x1.Idx → EReal := fun idx => ∑ i : Fin 64, tileCnt m c (64 * (idx 0).val + i.val)

/-- Every index of a one-element rank-3 block is the zero index. -/
theorem idx111 (j : S1x1x1.Idx) : j = ix3 0 0 0 := by
  funext a
  apply Fin.ext
  match a with
  | ⟨0, _⟩ => show (j 0).val = 0; have := (j 0).isLt; change (j 0).val < 1 at this; omega
  | ⟨1, _⟩ => show (j 1).val = 0; have := (j 1).isLt; change (j 1).val < 1 at this; omega
  | ⟨2, _⟩ => show (j 2).val = 0; have := (j 2).isLt; change (j 2).val < 1 at this; omega

theorem outsAt0_congr (c : Dev nD) {n n' : ℕ} (e : n = n') (hn : n < cfg0.N) (hn' : n' < cfg0.N) :
    outsAt0 m c n hn = outsAt0 m c n' hn' := by subst e; rfl

/-- Where the accumulators' blocks sit: block (t / 64, 0, 0) of the [2, 1, 1] arrays. -/
theorem idx2 : ∀ t : Fin cfg0.N, win0_2.index t (0 : Fin 3) = t.val / 64 ∧ win0_2.index t (1 : Fin 3) = 0 ∧ win0_2.index t (2 : Fin 3) = 0 :=
  (by decide +kernel : ∀ t : Fin grid0.N, win0_2.index t (0 : Fin 3) = t.val / 64 ∧ win0_2.index t (1 : Fin 3) = 0 ∧ win0_2.index t (2 : Fin 3) = 0)
theorem idx3 : ∀ t : Fin cfg0.N, win0_3.index t (0 : Fin 3) = t.val / 64 ∧ win0_3.index t (1 : Fin 3) = 0 ∧ win0_3.index t (2 : Fin 3) = 0 :=
  (by decide +kernel : ∀ t : Fin grid0.N, win0_3.index t (0 : Fin 3) = t.val / 64 ∧ win0_3.index t (1 : Fin 3) = 0 ∧ win0_3.index t (2 : Fin 3) = 0)

include hfin hlab in
/-- A write-back of the loss accumulator (after the last step of a half) writes the half's entry of the loss array. -/
theorem flushed2_eq (c : Dev nD) (t : Fin cfg0.N) (hf : (cfg0.win 2).flush t = true) :
    (dats m 0 c).flushed 2 t = ((cfg0.win 2).blk t).view.read (Elt Ideal) (G2 m c) := by
  have hN : cfg0.N = 128 := N_0
  have h63 : t.val % 64 = 63 := (flush0_2 t).mp hf
  have htN : t.val < 128 := lt_of_lt_of_eq t.isLt hN
  show (cfg0.win 2).cut (grid0.coords t) ((dats m 0 c).after 2 t) = _
  rw [after0_2]
  funext y
  rw [View.read_apply]
  show (outsAt0 m c t.val t.isLt).1 ((cfg0.win 2).xinj (grid0.coords t) y) = G2 m c (((cfg0.win 2).blk t).view.emb y)
  rw [idx111 ((cfg0.win 2).xinj (grid0.coords t) y)]
  have e : t.val = 64 * (t.val / 64) + 63 := by omega
  rw [outsAt0_congr m c e t.isLt (by omega), lossAt_last m hfin hlab c (t.val / 64) (by omega)]
  unfold G2
  have h0 : ((((cfg0.win 2).blk t).view.emb y) 0).val = t.val / 64 := by
    show win0_2.index t 0 * 1 + 1 * (y 0).val = _
    have hy : (y 0).val = 0 := by have := (y 0).isLt; change (y 0).val < 1 at this; omega
    rw [(idx2 t).1, hy]; omega
  rw [h0]

/-- A write-back of the count accumulator writes the half's entry of the count array. -/
theorem flushed3_eq (c : Dev nD) (t : Fin cfg0.N) (hf : (cfg0.win 3).flush t = true) :
    (dats m 0 c).flushed 3 t = ((cfg0.win 3).blk t).view.read (Elt Ideal) (G3 m c) := by
  have hN : cfg0.N = 128 := N_0
  have h63 : t.val % 64 = 63 := (flush0_3 t).mp hf
  have htN : t.val < 128 := lt_of_lt_of_eq t.isLt hN
  show (cfg0.win 3).cut (grid0.coords t) ((dats m 0 c).after 3 t) = _
  rw [after0_3]
  funext y
  rw [View.read_apply]
  show (outsAt0 m c t.val t.isLt).2 ((cfg0.win 3).xinj (grid0.coords t) y) = G3 m c (((cfg0.win 3).blk t).view.emb y)
  rw [idx111 ((cfg0.win 3).xinj (grid0.coords t) y)]
  have e : t.val = 64 * (t.val / 64) + 63 := by omega
  rw [outsAt0_congr m c e t.isLt (by omega), cntAt_last m c (t.val / 64) (by omega)]
  unfold G3
  have h0 : ((((cfg0.win 3).blk t).view.emb y) 0).val = t.val / 64 := by
    show win0_3.index t 0 * 1 + 1 * (y 0).val = _
    have hy : (y 0).val = 0 := by have := (y 0).isLt; change (y 0).val < 1 at this; omega
    rw [(idx3 t).1, hy]; omega
  rw [h0]

/-- Every entry of the loss array is covered by the write-back after the last step of its half. -/
theorem cover2 (c : Dev nD) (i : ((cfg0.win 2).arr.view.loc (c.tc : Thread nD τ)).2.ty.Idx) :
    ∃ t : Fin cfg0.N, (cfg0.win 2).flush t = true ∧ i ∈ ((cfg0.win 2).blk t).view.set := by
  have hN : cfg0.N = 128 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 64 * (i 0).val + 63 := ⟨⟨64 * (i 0).val + 63, by omega⟩, rfl⟩
  refine ⟨t, (flush0_2 t).mpr (by omega), ?_⟩
  show i ∈ ((View.whole main_v2_0).slice (win0_2.rect t)).set
  rw [View.set_slice_whole, Rect.mem_set_unit]
  intro a
  have hx := idx2 t
  match a with
  | ⟨0, _⟩ =>
    show win0_2.index t 0 * 1 ≤ (i 0 : Nat) ∧ (i 0 : Nat) < win0_2.index t 0 * 1 + 1
    rw [hx.1]; omega
  | ⟨1, _⟩ =>
    show win0_2.index t 1 * 1 ≤ (i 1 : Nat) ∧ (i 1 : Nat) < win0_2.index t 1 * 1 + 1
    rw [hx.2.1]; omega
  | ⟨2, _⟩ =>
    show win0_2.index t 2 * 1 ≤ (i 2 : Nat) ∧ (i 2 : Nat) < win0_2.index t 2 * 1 + 1
    rw [hx.2.2]; omega

/-- Every entry of the count array is covered by the write-back after the last step of its half. -/
theorem cover3 (c : Dev nD) (i : ((cfg0.win 3).arr.view.loc (c.tc : Thread nD τ)).2.ty.Idx) :
    ∃ t : Fin cfg0.N, (cfg0.win 3).flush t = true ∧ i ∈ ((cfg0.win 3).blk t).view.set := by
  have hN : cfg0.N = 128 := N_0
  have hi0 : (i 0).val < 2 := (i 0).isLt
  have hi1 : (i 1).val < 1 := (i 1).isLt
  have hi2 : (i 2).val < 1 := (i 2).isLt
  obtain ⟨t, ht⟩ : ∃ t : Fin cfg0.N, t.val = 64 * (i 0).val + 63 := ⟨⟨64 * (i 0).val + 63, by omega⟩, rfl⟩
  refine ⟨t, (flush0_3 t).mpr (by omega), ?_⟩
  show i ∈ ((View.whole main_v2_1).slice (win0_3.rect t)).set
  rw [View.set_slice_whole, Rect.mem_set_unit]
  intro a
  have hx := idx3 t
  match a with
  | ⟨0, _⟩ =>
    show win0_3.index t 0 * 1 ≤ (i 0 : Nat) ∧ (i 0 : Nat) < win0_3.index t 0 * 1 + 1
    rw [hx.1]; omega
  | ⟨1, _⟩ =>
    show win0_3.index t 1 * 1 ≤ (i 1 : Nat) ∧ (i 1 : Nat) < win0_3.index t 1 * 1 + 1
    rw [hx.2.1]; omega
  | ⟨2, _⟩ =>
    show win0_3.index t 2 * 1 ≤ (i 2 : Nat) ∧ (i 2 : Nat) < win0_3.index t 2 * 1 + 1
    rw [hx.2.2]; omega

include hfin hlab in
/-- The loss array ends at `G2`. -/
theorem final2 (c : Dev nD) : (dats m 0 c).arrAt 2 cfg0.N = G2 m c :=
  (dats m 0 c).arrAt_eq_of_cover 2 (G2 m c) (flushed2_eq m hfin hlab c) (cover2 c)

/-- The count array ends at `G3`. -/
theorem final3 (c : Dev nD) : (dats m 0 c).arrAt 3 cfg0.N = G3 m c :=
  (dats m 0 c).arrAt_eq_of_cover 3 (G3 m c) (flushed3_eq m c) (cover3 c)

/-! ## The run with its value -/

/-- Row r of the logits, counted as (half h, tile i of the half, row q of the tile). -/
theorem rowOf_split (c : Dev nD) (h : Fin 2) (i : Fin 64) (q : Fin 32) :
    rowOf m c (32 * (64 * h.val + i.val) + q.val)
      = rows2d (m ((c : Thread nD τ).loc main_arg0)) ⟨(h.val * 64 + i.val) * 32 + q.val, by have := h.isLt; have := i.isLt; have := q.isLt; omega⟩ := by
  unfold rowOf
  congr 1
  exact Fin.ext (by dsimp only; have := h.isLt; have := i.isLt; have := q.isLt; omega)

theorem labOf_split (c : Dev nD) (h : Fin 2) (i : Fin 64) (q : Fin 32) :
    labOf m c (32 * (64 * h.val + i.val) + q.val)
      = labs1d (m ((c : Thread nD τ).loc main_arg1)) ⟨(h.val * 64 + i.val) * 32 + q.val, by have := h.isLt; have := i.isLt; have := q.isLt; omega⟩ := by
  unfold labOf
  congr 1
  exact Fin.ext (by dsimp only; have := h.isLt; have := i.isLt; have := q.isLt; omega)

/-- The two halves' entries of the loss array add up to the loss sum over all 4096 rows. -/
theorem G2_total (c : Dev nD) :
    G2 m c (ix3 0 0 0) + G2 m c (ix3 1 0 0)
      = ∑ r : Fin 4096, rowLoss (rows2d (m ((c : Thread nD τ).loc main_arg0)) r) (labs1d (m ((c : Thread nD τ).loc main_arg1)) r) := by
  rw [Cert.RowMath.sum_rows_split, Fin.sum_univ_two]
  unfold G2 tileLoss
  simp only [rowOf_split m c, labOf_split m c]

/-- The two halves' entries of the count array add up to the number of counted rows. -/
theorem G3_total (c : Dev nD) :
    G3 m c (ix3 0 0 0) + G3 m c (ix3 1 0 0)
      = ∑ r : Fin 4096, validF (labs1d (m ((c : Thread nD τ).loc main_arg1)) r) := by
  rw [Cert.RowMath.sum_rows_split, Fin.sum_univ_two]
  unfold G3 tileCnt
  simp only [labOf_split m c]

include hfin hlab in
/-- What the later host lines leave in the result buffer: 1·(loss sum / max(count, 1)) + 10·(ranking loss), the loss
    sum and the count over all 4096 rows of the arguments. -/
theorem tail_value (c : Dev nD) :
    Pipeline.afterTail₀ cfgs (dats m) 0 (V0 m) tailOps c main_v43
      = fun _ => total (lmLoss (rows2d (m ((c : Thread nD τ).loc main_arg0))) (labs1d (m ((c : Thread nD τ).loc main_arg1))))
          (Cert.KernelIdeal.KTail.rankK (F := Ideal) (m ((c : Thread nD τ).loc main_arg2)) (m ((c : Thread nD τ).loc main_arg3)) ix0) := by
  unfold Pipeline.afterTail₀
  rw [show (tailOps (F := Ideal)) = Cert.KernelIdeal.KTail.tailOps (F := Ideal) from rfl, Cert.KernelIdeal.KTail.tail_result_ideal]
  have e2 : Pipeline.withArrays (cfgs 0).spec c (V0 m c) (fun w => (dats m 0 c).arrAt w (cfgs 0).N) (Proc.devRef .tc main_v2_0) = G2 m c :=
    (Pipeline.withArrays_arr spec0 launch0.win.arr_inj c _ _ 2).trans (final2 m hfin hlab c)
  have e3 : Pipeline.withArrays (cfgs 0).spec c (V0 m c) (fun w => (dats m 0 c).arrAt w (cfgs 0).N) (Proc.devRef .tc main_v2_1) = G3 m c :=
    (Pipeline.withArrays_arr spec0 launch0.win.arr_inj c _ _ 3).trans (final3 m c)
  have ea2 : Pipeline.withArrays (cfgs 0).spec c (V0 m c) (fun w => (dats m 0 c).arrAt w (cfgs 0).N) (Proc.devRef .tc main_arg2) = m ((c : Thread nD τ).loc main_arg2) :=
    (Pipeline.withArrays_of_ne _ c (V0 m c) _ main_arg2 (by exact (by decide : ∀ w, Pipeline.arrRef spec0 w ≠ main_arg2))).trans (V_main_arg2 m c)
  have ea3 : Pipeline.withArrays (cfgs 0).spec c (V0 m c) (fun w => (dats m 0 c).arrAt w (cfgs 0).N) (Proc.devRef .tc main_arg3) = m ((c : Thread nD τ).loc main_arg3) :=
    (Pipeline.withArrays_of_ne _ c (V0 m c) _ main_arg3 (by exact (by decide : ∀ w, Pipeline.arrRef spec0 w ≠ main_arg3))).trans (V_main_arg3 m c)
  rw [e2, e3, ea2, ea3]
  funext _
  unfold lmLoss
  rw [← G2_total m c, ← G3_total m c]

include hfin hlab in
/-- The idealized kernel program runs to the end with its result at the specification's value and its four arguments
    as launched. -/
theorem run_value (ρ : Dev nD → PrngReg) :
    θ_run (defs (F := Ideal)) (onTc (τ := τ) (main (F := Ideal))) ⟨m, fun _ => 0, ρ⟩ (fun r => ∀ c : Dev nD,
      r.2.mem ((c.tc : Thread nD τ).loc main_v43)
          = (fun _ => total (lmLoss (rows2d (m ((c.tc : Thread nD τ).loc main_arg0))) (labs1d (m ((c.tc : Thread nD τ).loc main_arg1))))
              (Cert.KernelIdeal.KTail.rankK (F := Ideal) (m ((c.tc : Thread nD τ).loc main_arg2)) (m ((c.tc : Thread nD τ).loc main_arg3)) ix0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).2 main_v43 (Pipeline.mem_restRefs_of main_v43 (by decide) (by decide))).trans (tail_value m hfin hlab c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c),
    ((h c).2 main_arg3 (Pipeline.mem_restRefs_of main_arg3 (by decide) (by decide))).trans (W_main_arg3 m (dats m) c)⟩)
    (run_main m ρ)

end Cert.KernelIdeal.Val

end
-- ==== Proof.RankEq.lean ====
/-
  The ranking loss is one function of the ranking logits and the rankings in both programs.

  Both programs compute it on the host by the same operations in the same order: the rankings converted to floats r;
  the pair mask  (i < j) ∧ (r_i < r_j)  from a strict upper triangle and a comparison; the weight 1 / (r_i + r_j);
  softplus of the difference s_j − s_i of the ranking logits, max(d, 0) + log (1 + exp (−|d|)); the masked weighted sum
  over the 64 × 64 pairs, divided by 64.  The two terms differ only in the names of their stages, so they are equal by
  unfolding, for any float instance.
-/
import proofs.«426438_j56418690400290_3_alg».proof.Proof.KTail
import proofs.«426438_j56418690400290_3_alg».proof.Proof.RefRead

noncomputable section

namespace Cert.RankEq

open Idealize.ShloMosaic

variable {F : FTy → Type} [FloatOps F]

set_option maxRecDepth 8192 in
/-- The kernel program's ranking loss and the reference's stage %41 are the same composition of host operations. -/
theorem rank_eq (a2 : (⟨Cert.KernelIdeal.S64, .f32⟩ : BufTy).Contents (Elt F)) (a3 : (⟨Cert.KernelIdeal.S64, .i32⟩ : BufTy).Contents (Elt F)) :
    Cert.KernelIdeal.KTail.rankK (F := F) a2 a3 = Cert.ReferenceIdeal.Read.val_main_v41 (F := F) a2 a3 := rfl

end Cert.RankEq

end
-- ==== Proof.lean ====
/-
  The certificate: the Pallas kernel's loss equals the reference's over the extended reals.

  The program takes logits x : [4, 1024, 32000], label words l : [4, 1024], ranking logits and rankings : [64], and
  returns  1 · (language-model loss) + 10 · (pairwise ranking loss).  Both sides read the logits as 4096 rows of 32000
  columns, row r being (r / 1024, r % 1024).

  The kernel walks a 2 × 64 grid; step (c, i) takes rows 32·(64·c + i) … + 31.  For each row it forms
  (max x + log Σ_j exp (x_j − max x)) − x_l, the entry x_l picked by a one-hot mask over the columns and a lane sum, multiplies
  by 1 for a counted row and 0 for a row whose label is −100, and adds the 32 values, and separately the 32 counts, into
  two accumulators kept per half c: reset at i = 0 and added to at every step, so that after i = 63 each holds its half's
  sum over 2048 rows.  The host then adds the two halves and divides the sum by max(count, 1).

  The reference forms log-softmax  (x_j − max x) − log Σ_j exp (x_j − max x),  gathers column l of every row, negates it,
  replaces ignored rows by 0, sums the 4096 values and divides by max(count, 1).

  They agree when every logit is a real number and every label is −100 or lies in [0, 32000): then max x is real, the sum of
  exponentials is a positive real, and row by row  (max + log Σ) − x_l = −((x_l − max) − log Σ)  is an identity of reals; the
  clamps of the label to [0, 31999] are the identity on such labels; an ignored row contributes 0 on both sides; and a sum
  over 4096 rows is the sum over 2 halves × 64 steps × 32 rows.  The ranking loss is the same sequence of host operations
  on the same two arguments in both programs, hence one function of them, carried along unopened.  The precondition is read
  back into exactly the two facts used: finiteness of the logits and the range of the labels.

  The kernel as printed and its idealization are the same text, read at the two number systems; each program runs to the
  end and leaves its four arguments as launched.
-/
import proofs.«426438_j56418690400290_3_alg».proof.Defs
import proofs.«426438_j56418690400290_3_alg».proof.Proof.Gen.Kernel
import proofs.«426438_j56418690400290_3_alg».proof.Proof.Gen.Kernel.Skeleton
import proofs.«426438_j56418690400290_3_alg».proof.Proof.Gen.Kernel.Launch
import proofs.«426438_j56418690400290_3_alg».proof.Proof.Gen.Kernel.Points
import proofs.«426438_j56418690400290_3_alg».proof.Proof.Gen.KernelIdeal
import proofs.«426438_j56418690400290_3_alg».proof.Proof.Gen.KernelIdeal.Skeleton
import proofs.«426438_j56418690400290_3_alg».proof.Proof.Gen.KernelIdeal.Launch
import proofs.«426438_j56418690400290_3_alg».proof.Proof.Gen.KernelIdeal.Points
import proofs.«426438_j56418690400290_3_alg».proof.Proof.Gen.ReferenceIdeal
import proofs.«426438_j56418690400290_3_alg».proof.Proof.Gen.Pre_finite_inputs
import proofs.«426438_j56418690400290_3_alg».proof.Proof.Spec
import proofs.«426438_j56418690400290_3_alg».proof.Proof.KFrame
import proofs.«426438_j56418690400290_3_alg».proof.Proof.KIFrame
import proofs.«426438_j56418690400290_3_alg».proof.Proof.RefRun
import proofs.«426438_j56418690400290_3_alg».proof.Proof.RefRead
import proofs.«426438_j56418690400290_3_alg».proof.Proof.RefValue
import proofs.«426438_j56418690400290_3_alg».proof.Proof.PreFacts
import proofs.«426438_j56418690400290_3_alg».proof.Proof.KIValue
import proofs.«426438_j56418690400290_3_alg».proof.Proof.RankEq
import Idealize.ShloMosaic.Lib.ValueIdx
import Idealize.ShloMosaic.Adequacy
import Idealize.ShloMosaic.Init

noncomputable section

namespace Cert.Proof

open Idealize.ShloMosaic Idealize.SL.Sem

/-- The kernel as printed runs to the end and leaves its four arguments as launched. -/
theorem frame_k : Cert.frame_Kernel := fun m ρ _ => Cert.Kernel.Fr.frame (F := Bits) m ρ

/-- So does its idealization. -/
theorem frame_ki : Cert.frame_KernelIdeal := fun m ρ _ => Cert.KernelIdeal.Fr.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel is the kernel's own text read over the extended reals: there is no rewrite to justify. -/
theorem preserves : Cert.preserves_Kernel_KernelIdeal := trivial

/-- From memories agreeing on the four arguments, with every logit real and every label −100 or a column, both programs
    end with  1 · lmLoss + 10 · rank  of those arguments: the kernel by its run read tile by tile, the reference by its
    operations read row by row, the ranking loss one function of the last two arguments on both sides. -/
theorem algebraic : Cert.algebraic_KernelIdeal_ReferenceIdeal := by
  intro m ρ m' ρ' hpre hagree
  -- the precondition, read back at each core: the logits are real, the labels −100 or below 32000
  have hfin : ∀ (c : Dev Cert.KernelIdeal.nD) i, ∃ r : ℝ,
      m ((c.tc : Thread Cert.KernelIdeal.nD Cert.KernelIdeal.τ).loc Cert.KernelIdeal.main_arg0) i = (r : EReal) :=
    fun c => (Cert.PreFacts.of_pre _ _ _ _ (hpre c)).1
  have hlab : ∀ (c : Dev Cert.KernelIdeal.nD) i,
      m ((c.tc : Thread Cert.KernelIdeal.nD Cert.KernelIdeal.τ).loc Cert.KernelIdeal.main_arg1) i = Cert.Spec.ign
        ∨ (m ((c.tc : Thread Cert.KernelIdeal.nD Cert.KernelIdeal.τ).loc Cert.KernelIdeal.main_arg1) i).toNat < 32000 :=
    fun c => (Cert.PreFacts.of_pre _ _ _ _ (hpre c)).2
  -- the common result, as a function of the kernel's arguments
  refine ⟨fun c => fun _ => Cert.Spec.total
      (Cert.Spec.lmLoss
        (Cert.Spec.rows2d (m ((c.tc : Thread Cert.KernelIdeal.nD Cert.KernelIdeal.τ).loc Cert.KernelIdeal.main_arg0)))
        (Cert.Spec.labs1d (m ((c.tc : Thread Cert.KernelIdeal.nD Cert.KernelIdeal.τ).loc Cert.KernelIdeal.main_arg1))))
      (Cert.KernelIdeal.KTail.rankK (F := Ideal)
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)) ValueIdx.ix0),
    Cert.KernelIdeal.Val.run_value m hfin hlab ρ, ?_⟩
  -- the reference's result term, moved to the kernel's arguments and read as the specification's
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, (hagree c).1, (hagree c).2.1, (hagree c).2.2.1, (hagree c).2.2.2,
    Cert.ReferenceIdeal.RefValue.result_eq _ _ _ _ (hfin c) (hlab c), ← Cert.RankEq.rank_eq]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
